-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x128 : Shape := ⟨3, ![128, 64, 128]⟩
abbrev S_ : Shape := ⟨0, ![]⟩
abbrev S128x64 : Shape := ⟨2, ![128, 64]⟩

class Facts : Prop where
  bcast_S_S128x64x128 : S_.BroadcastsInDim S128x64x128 (![] : Fin 0 → Fin S128x64x128.rank)
  reducesTo_S128x64x128_S_d0_1_2 : S128x64x128.ReducesTo [0, 1, 2] S_
  h_S_ : 0 < S_.numel
  reducesTo_S128x64x128_S128x64_d2 : S128x64x128.ReducesTo [2] S128x64
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S128x64x128 .f32) : IVec S_ 1 :=
  let main_v0 : FVec F S128x64x128 .f32 := Host.absf main_arg0
  let main_cst : FVec F S_ .f32 := constant S_ .f32 0x7F800000#32
  let main_v1 : FVec F S128x64x128 .f32 := broadcastInDim S128x64x128 ![] bcast_S_S128x64x128 main_cst
  let main_v2 : IVec S128x64x128 1 := cmpf .olt main_v0 main_v1
  let main_c : IVec S_ 1 := constantI S_ 1 1#1
  let main_v3 : IVec S_ 1 := (fun x v => Host.reduce IntOp.andi x v reducesTo_S128x64x128_S_d0_1_2 h_S_) main_v2 main_c
  let main_v4 : FVec F S128x64x128 .f32 := mulf main_arg0 main_arg0
  let main_cst_0 : FVec F S_ .f32 := constant S_ .f32 0x00000000#32
  let main_v5 : FVec F S128x64 .f32 := (fun x v => Host.reduceAdd x v reducesTo_S128x64x128_S128x64_d2 h_S_) main_v4 main_cst_0
  let main_cst_1 : FVec F S_ .f32 := constant S_ .f32 0x00000000#32
  let main_v6 : FVec F S128x64 .f32 := broadcastInDim S128x64 ![] bcast_S_S128x64 main_cst_1
  let main_v7 : IVec S128x64 1 := cmpf .ogt main_v5 main_v6
  let main_c_2 : IVec S_ 1 := constantI S_ 1 1#1
  let main_v8 : IVec S_ 1 := (fun x v => Host.reduce IntOp.andi x v reducesTo_S128x64_S_d0_1 h_S_) main_v7 main_c_2
  let main_v9 : IVec S_ 1 := andi main_v3 main_v8
  main_v9
-- ==== Kernel.lean ====
abbrev S128x64x128 : Shape := ⟨3, ![128, 64, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S256x128 : Shape := ⟨2, ![256, 128]⟩
abbrev S256x8192 : Shape := ⟨2, ![256, 8192]⟩
abbrev S256x1 : Shape := ⟨2, ![256, 1]⟩
abbrev S1x8192 : Shape := ⟨2, ![1, 8192]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 14
  | .vmem => 4
  | .smem => 0
  | _ => 0

abbrev bufTy : (tb : Table) → Fin (tcTables nBuf tb) → BufTy
  | .hbm, ⟨0, _⟩ => ⟨S128x64x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S8192x128, .bf16⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8192x128, .bf16⟩
  | .local _ .vmem, ⟨1, _⟩ => ⟨S256x128, .bf16⟩
  | .local _ .vmem, ⟨2, _⟩ => ⟨S256x128, .bf16⟩
  | .local _ .vmem, ⟨3, _⟩ => ⟨S1x1, .f32⟩
  | _, _ => ⟨S128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S128x64x128_S8192x128 : S128x64x128.ShapeCasts S8192x128
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  iota_S256x1_d0_w32 : S256x1.Iotas .tc 32 [0]
  natLt_1_32 : 1 < 32
  iota_S1x8192_d1_w32 : S1x8192.Iotas .tc 32 [1]
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  shapeCasts_S256x1_S1x256x1 : S256x1.ShapeCasts S1x256x1
  reduces_S1x256x1_S1 : S1x256x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .bf16 = 32 ∨ (Rect.block (s := S8192x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v7) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x64x128 : Shape := ⟨3, ![128, 64, 128]⟩
abbrev S_ : Shape := ⟨0, ![]⟩
abbrev S128x64 : Shape := ⟨2, ![128, 64]⟩
abbrev S128x64x1 : Shape := ⟨3, ![128, 64, 1]⟩
abbrev S128x64x128x64 : Shape := ⟨4, ![128, 64, 128, 64]⟩
abbrev S128x64x64x128 : Shape := ⟨4, ![128, 64, 64, 128]⟩
abbrev S128 : Shape := ⟨1, ![128]⟩
abbrev S128x1 : Shape := ⟨2, ![128, 1]⟩
abbrev S128x2 : Shape := ⟨2, ![128, 2]⟩
abbrev S128x64x64 : Shape := ⟨3, ![128, 64, 64]⟩

abbrev nBuf : Space → Nat
  | .hbm => 46
  | .vmem => 0
  | .smem => 0
  | _ => 0

abbrev bufTy : (tb : Table) → Fin (tcTables nBuf tb) → BufTy
  | .hbm, ⟨0, _⟩ => ⟨S128x64x128, .f32⟩
  | .hbm, ⟨1, _⟩ => ⟨S128x64x128, .f32⟩
  | .hbm, ⟨2, _⟩ => ⟨S_, .f32⟩
  | .hbm, ⟨3, _⟩ => ⟨S128x64, .f32⟩
  | .hbm, ⟨4, _⟩ => ⟨S128x64x1, .f32⟩
  | .hbm, ⟨5, _⟩ => ⟨S128x64x1, .f32⟩
  | .hbm, ⟨6, _⟩ => ⟨S128x64x128, .f32⟩
  | .hbm, ⟨7, _⟩ => ⟨S128x64x128, .f32⟩
  | .hbm, ⟨8, _⟩ => ⟨S128x64x128x64, .f32⟩
  | .hbm, ⟨9, _⟩ => ⟨S128x64x64x128, .f32⟩
  | .hbm, ⟨10, _⟩ => ⟨S_, .f32⟩
  | .hbm, ⟨11, _⟩ => ⟨S128x64x64x128, .f32⟩
  | .hbm, ⟨12, _⟩ => ⟨S128x64x64x128, .f32⟩
  | .hbm, ⟨13, _⟩ => ⟨S128x64x64x128, .f32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S128x1, .i32⟩
  | .hbm, ⟨31, _⟩ => ⟨S128x2, .i32⟩
  | .hbm, ⟨32, _⟩ => ⟨S128x64x64, .f32⟩
  | .hbm, ⟨33, _⟩ => ⟨S_, .f32⟩
  | .hbm, ⟨34, _⟩ => ⟨S128x64, .f32⟩
  | .hbm, ⟨35, _⟩ => ⟨S_, .f32⟩
  | .hbm, ⟨36, _⟩ => ⟨S128x64, .f32⟩
  | .hbm, ⟨37, _⟩ => ⟨S128x64, .f32⟩
  | .hbm, ⟨38, _⟩ => ⟨S128x64, .f32⟩
  | .hbm, ⟨39, _⟩ => ⟨S128x64, .f32⟩
  | .hbm, ⟨40, _⟩ => ⟨S128x64, .f32⟩
  | .hbm, ⟨41, _⟩ => ⟨S128x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S128x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  reducesTo_S128x64x128_S128x64_d2 : S128x64x128.ReducesTo [2] S128x64
  h_S_ : 0 < S_.numel
  bcast_S128x64_S128x64x1_0_1 : S128x64.BroadcastsInDim S128x64x1 (![0, 1] : Fin 2 → Fin S128x64x1.rank)
  bcast_S128x64x1_S128x64x128_0_1_2 : S128x64x1.BroadcastsInDim S128x64x128 (![0, 1, 2] : Fin 3 → Fin S128x64x128.rank)
  transposes_S128x64x128x64_S128x64x64x128_2_3_1_0 : S128x64x128x64.Transposes [2, 3, 1, 0] S128x64x64x128
  bcast_S_S128x64x64x128 : S_.BroadcastsInDim S128x64x64x128 (![] : Fin 0 → Fin S128x64x64x128.rank)
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  reducesTo_S128x64x64_S128x64_d2 : S128x64x64.ReducesTo [2] S128x64
  reducesTo_S128x64x64x128_S128x64_d2_3 : S128x64x64x128.ReducesTo [2, 3] S128x64
  reducesTo_S128x64_S_d0_1 : S128x64.ReducesTo [0, 1] S_
  dot_S128x64x128_S128x64x128_S128x64x128x64_2_2_01_01_n_n_wf : DotDims.WF S128x64x128 S128x64x128 S128x64x128x64 [2] [2] [0, 1] [0, 1] [] []
  gather_S128x64x64x128_S128x2_S128x64x64_12_03_n_n_03_1_164641_wf : GatherDims.WF S128x64x64x128 S128x2 S128x64x64 [1, 2] [0, 3] [] [0, 3] [] 1 ![1, 64, 64, 1]

variable [Facts₀]

def dot_S128x64x128_S128x64x128_S128x64x128x64_2_2_01_01_n_n : DotDims S128x64x128 S128x64x128 S128x64x128x64 where
  lhsContracting := [2]
  rhsContracting := [2]
  lhsNonContracting := [0, 1]
  rhsNonContracting := [0, 1]
  lhsBatch := []
  rhsBatch := []
  wf := dot_S128x64x128_S128x64x128_S128x64x128x64_2_2_01_01_n_n_wf
def gather_S128x64x64x128_S128x2_S128x64x64_12_03_n_n_03_1_164641 : GatherDims S128x64x64x128 S128x2 S128x64x64 where
  offsetDims := [1, 2]
  collapsedSliceDims := [0, 3]
  operandBatchingDims := []
  startIndicesBatchingDims := []
  startIndexMap := [0, 3]
  indexVectorDim := 1
  sliceSizes := ![1, 64, 64, 1]
  wf := gather_S128x64x64x128_S128x2_S128x64x64_12_03_n_n_03_1_164641_wf

class Facts : Prop extends Facts₀ where

variable [Facts]
-- ==== Proof.K.FrameRuns.lean ====
import proofs.«154974_j12833362280503_1_alg».proof.Proof.Gen.Kernel.Launch
import proofs.«154974_j12833362280503_1_alg».proof.Proof.Gen.Kernel.Skeleton
import proofs.«154974_j12833362280503_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers as the region finds them -/

/-- Core `c`'s buffer contents when the region is entered, as a valuation: the launch memory after the nine
    host operations that normalise the rows and round them to bf16. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-array input (window 0) sits in its staging buffer at every point: it is moved there at the first
    point and its block index never changes afterwards. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row-block input (window 1) holds rows `256 t … 256 t + 255` of the same array at point `t`: it is moved
    anew at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition under which the body first clears the accumulator: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs at a point -/

/-- The accumulator's one staging buffer, through which its contents are stated. -/
abbrev VO0_2 : View sig .tc .vmem S1x1 .f32 := (Memref.whole cc0_stg2_0 : Memref sig .tc .vmem S1x1 .f32).view
/-- Each window's current staging memref at point `t`, and that it is a whole buffer. -/
abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

/-! ## The body on any whole staging memrefs -/

set_option maxHeartbeats 1000000 in
/-- The body at the first point (the accumulator is cleared, then the point's term is added): on whole
    memrefs, the two inputs at their contents and the accumulator at any contents, it runs to the continuation
    holding the inputs as they were and the accumulator with the pieces its two stores wrote, last first. -/
noncomputable def kernelRun0_A (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__dcc_kernel i arg1 harg1 arg2 harg2 arg3 harg3) K } := by
  refine ⟨?_, fun E K => ?run⟩
  case run =>
    simp only [cc0__dcc_kernel_eq_skeleton]; unfold cc0__dcc_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%d2, %f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The body at a later point (the point's term is added to the accumulator as found): on whole memrefs, the two
    inputs and the accumulator at their contents, it runs to the continuation holding the inputs as they were and the
    accumulator with the piece its one store wrote. -/
noncomputable def kernelRun0_B (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__dcc_kernel i arg1 harg1 arg2 harg2 arg3 harg3) K } := by
  refine ⟨?_, fun E K => ?run⟩
  case run =>
    simp only [cc0__dcc_kernel_eq_skeleton]; unfold cc0__dcc_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.FrameData.lean ====
import proofs.«154974_j12833362280503_1_alg».proof.Proof.K.FrameRuns
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each case leaves in the accumulator -/

/-- At the first point the two stores' pieces cover the one-entry block. -/
theorem cover0_A_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the accumulator: its pieces read back. -/
def out0_A_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) : Vec F S1x1 .f32 :=
  VO0_2.read (Elt F) (VO0_2.writes (Elt F) VO0_2.junk (kernelRun0_A c i arg1 harg1 arg2 harg2 arg3 harg3 hc0 x0 x1).1)

/-- At a later point the one store's piece covers the block. -/
theorem cover0_B_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves in the accumulator, found at `xo2`: its piece read back. -/
def out0_B_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

/-! ## The running sum, point by point -/

/-- What the accumulator holds after the body at position `n`: the first point's value at `n = 0`, afterwards the
    later point's value over what the point before left (the buffer is not written back in between). -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 32 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At the first point: that point's value. -/
theorem outsAt0_A (c : Dev nD) (t : Fin cfg0.N) (h0 : t.val % 32 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: that point's value over what the point before left. -/
theorem outsAt0_B (c : Dev nD) (t : Fin cfg0.N) (h0 : ¬t.val % 32 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    buffer at its block and the accumulator at the running sum; the invariant the scoped rest; nothing owed; the
    two input windows read one array, so each holds half of the permission to it, the output the whole of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.scopedRest spec0 c
  q := fun w => match w with
    | ⟨0, _⟩ => fullShare.left
    | ⟨1, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the accumulator holds what the body left at the point before: the buffer is written back after
    the last point only. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; at the first point the accumulator is at anything and
    is cleared, at a later point it holds the running sum of the point before; the invariant passes through unread
    and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 32 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The accumulator's value per case, as one expression in the point's blocks -/

/-- The zero offsets, as the body's accesses spell them. -/
theorem hz2 : (![0, 0] : Fin 2 → ℕ) = fun _ => 0 := by
  funext a; fin_cases a <;> rfl

/-- The first point leaves the point's term added to zero. -/
theorem out0_A_2_eq (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) :
    out0_A_2 c i arg1 harg1 arg2 harg2 arg3 harg3 hc0 x0 x1
      = k0_pay6 (BitVec.ofNat 32 (i 0).val) (k0_pay2 x1 x0) k0_pay3 (iota .tc S1x8192 32 [1] iota_S1x8192_d1_w32) 64#32 k0_pay4 k0_pay5 (k0_pay1 (F := F)) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x1) hz2]
  simp only [View.readAt_eq_ld, harg1.read_unread, harg2.read_unread, harg3.read_unread, View.ld_unit_zero (S := S8192x128) hz2, View.ld_unit_zero (S := S256x128) hz2, View.ld_unit_zero (S := S1x1) hz2, View.readCov_unit_zero (S := S1x1) _ hz2]

/-- A later point leaves the point's term added to what it found. -/
theorem out0_B_2_eq (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) :
    out0_B_2 c i arg1 harg1 arg2 harg2 arg3 harg3 hc0 x0 x1 xo2
      = k0_pay6 (BitVec.ofNat 32 (i 0).val) (k0_pay2 x1 x0) k0_pay3 (iota .tc S1x8192 32 [1] iota_S1x8192_d1_w32) 64#32 k0_pay4 k0_pay5 xo2 := by
  unfold out0_B_2
  rw [View.read_writes_eq_canon _ _ _ (cover0_B_2 c i arg1 harg1 arg2 harg2 arg3 harg3 hc0 x0 x1 xo2)]
  unfold kernelRun0_B
  dsimp only
  sl_unfold_words
  rw [View.canon_unit_zero (S := S1x1) hz2]
  simp only [View.readAt_eq_ld, harg1.read_unread, harg2.read_unread, harg3.read_unread, View.ld_unit_zero (S := S8192x128) hz2, View.ld_unit_zero (S := S256x128) hz2, View.ld_unit_zero (S := S1x1) hz2]

end Cert.Kernel.Hand

end
-- ==== Proof.K.Launch.lean ====
/-
  The launch of the kernel program: the host lines before the pallas_call, the pipelined region, the host lines after.

  The pallas_call has three windows: window 0 stages the whole 8192 × 128 array of normalised rows once, window 1 stages
  its 256-row block t at grid point t, window 2 is the 1 × 1 output, written back once, after the last point. Windows
  0 and 1 read ONE array. Ownership of that array is therefore split in two complementary halves of the full share,
  one per window (reading needs only a positive share, and neither window writes); the output's array is held whole.
  Apart from that split everything is the usual run of a one-region program: the nine host lines before the region run
  within the unscoped buffers and leave them at the contents `V`; the region runs the body at the 32 grid points from
  the proof data's invariant (here only the scoped buffers no window stages, of which there are none); after the region
  the three last host lines (flatten the 1 × 1 output to a scalar, make the constant 8192, divide) run within the four
  buffers they touch — the output array, handed back whole by window 2, and three buffers that bypassed the region.
  At the end the program's result holds what those three lines compute from the output array's final contents
  (`Wy`), and the input array, which nothing writes, is as it was.

  The theorem is stated for any proof data of the pipeline with the listed properties, so that it serves the program
  read at the word level and read at the ideal values alike.
-/
import proofs.«154974_j12833362280503_1_alg».proof.Proof.Gen.Kernel.Launch
import proofs.«154974_j12833362280503_1_alg».proof.Proof.Gen.Kernel.Points
import Idealize.ShloMosaic.Lib.Pipeline.FrameSuffix
import Idealize.ShloMosaic.Lib.Pipeline.Value
import Idealize.ShloMosaic.Lib.Tactic
import Idealize.ShloMosaic.Lib.StableHlo.Run

set_option maxRecDepth 16384

noncomputable section

namespace Cert.Kernel.Launch

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region is entered: after the nine host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the three later host operations, the buffers at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- None of the nine lines before the region writes the input array: the region finds it as launched. -/
theorem V_main_arg0 (c : Dev nD) : V m c main_arg0 = m ((c : Thread nD τ).loc main_arg0) := by
  show StableHlo.after (List.flatten [hostOps0 (F := F)]) (fun b => m (c, b)) (Proc.devRef .tc main_arg0) = m ((c : Thread nD τ).loc main_arg0)
  simp only [List.flatten_cons, List.flatten_nil, List.append_nil]
  dsimp only [hostOps0]
  after_results
variable (dats : (p : Fin 1) → (c : Dev nD) → Dat τ (Elt F) Unit ℕ (UR sig nD τ) ℕ (cfgs p) c)

/-- The one buffer behind windows 0 and 1 is split between them, half a share each; window 2's array is held whole. -/
theorem hsplit (hA : ∀ c w, (dats 0 c).A w = V m c (Pipeline.arrRef spec0 w))
    (hq0 : ∀ c, (dats 0 c).q 0 = fullShare.left) (hq1 : ∀ c, (dats 0 c).q 1 = fullShare.right) (c : Dev nD) :
    (Pipeline.arrBufs spec0 c (V m c) : sProp 𝕄) ⊢ (dats 0 c).arrays ((dats 0 c).arrAt · 0) := by
  unfold Pipeline.arrBufs Dat.arrays
  rw [bigSep_W0, bigSep_eq_bigSepL_of_eq [main_v7, main_v8] (by decide) (by decide)]
  have e0 : ((cfgs 0).win 0).arr.view.set = Finset.univ := (arr_whole0 0).set_eq_univ
  have e2 : ((cfgs 0).win 2).arr.view.set = Finset.univ := (arr_whole0 2).set_eq_univ
  have s0 : (dats 0 c).share 0 = fullShare.left := (if_neg (by decide)).trans (hq0 c)
  have s1 : (dats 0 c).share 1 = fullShare.right := (if_neg (by decide)).trans (hq1 c)
  have s2 : (dats 0 c).share 2 = fullShare := if_pos rfl
  have a0 : (dats 0 c).arrAt 0 0 = V m c main_v7 := hA c 0
  have a1 : (dats 0 c).arrAt 1 0 = V m c main_v7 := hA c 1
  have a2 : (dats 0 c).arrAt 2 0 = V m c main_v8 := hA c 2
  simp only [bigSepL]
  show iprop(((c.tc : Thread nD τ).loc main_v7 ↦{fullShare} V m c main_v7) ∗ ((c.tc : Thread nD τ).loc main_v8 ↦{fullShare} V m c main_v8)) ⊢ _
  rw [e0, e2, s0, s1, s2, a0, a1, a2]
  have hsh : ((c.tc : Thread nD τ).loc main_v7 ↦{fullShare} V m c main_v7 : sProp 𝕄) ⊢ iprop(((c.tc : Thread nD τ).loc main_v7 ↦{fullShare.left} V m c main_v7) ∗ ((c.tc : Thread nD τ).loc main_v7 ↦{fullShare.right} V m c main_v7)) :=
    (pointsTo_share (PosShare.mem_left_op_right fullShare)).1
  iintro ⟨H7, H8⟩
  ihave H := hsh $$ H7
  icases H with ⟨Hl, Hr⟩
  isplitl [Hl]; · iexact Hl
  isplitl [Hr]; · iexact Hr
  iexact H8

/-! ## The three host lines after the region -/

/-- The four buffers those lines touch: the region's result and the three they write. -/
abbrev tailS : Finset (DevRef τ sig) :=
  {Proc.devRef .tc main_v8, Proc.devRef .tc main_v9, Proc.devRef .tc main_cst_0, Proc.devRef .tc main_v10}

/-- The contents on leaving the region: as entered, but the region's result array at X. -/
abbrev Wx (c : Dev nD) (X : (Proc.devRef (τ := τ) .tc main_v8).ty.Contents (Elt F)) : Valuation τ sig (Elt F) :=
  Function.update (V0 m c) (Proc.devRef .tc main_v8) X
/-- and after the three lines. -/
abbrev Wy (c : Dev nD) (X : (Proc.devRef (τ := τ) .tc main_v8).ty.Contents (Elt F)) : Valuation τ sig (Elt F) :=
  StableHlo.after (List.flatten [hostOps1]) (Wx m c X)

theorem held_tailS (c : Dev nD) (W : Valuation τ sig (Elt F)) :
    (StableHlo.held (c.tc : Thread nD τ) tailS W : sProp 𝕄)
      = iprop((((c.tc : Thread nD τ).loc main_v8) ↦{fullShare} W (Proc.devRef .tc main_v8)) ∗ (((c.tc : Thread nD τ).loc main_v9) ↦{fullShare} W (Proc.devRef .tc main_v9))
          ∗ (((c.tc : Thread nD τ).loc main_cst_0) ↦{fullShare} W (Proc.devRef .tc main_cst_0)) ∗ (((c.tc : Thread nD τ).loc main_v10) ↦{fullShare} W (Proc.devRef .tc main_v10))) := by
  unfold StableHlo.held
  exact bigSep_eq_bigSepL_of_eq [Proc.devRef .tc main_v8, Proc.devRef .tc main_v9, Proc.devRef .tc main_cst_0, Proc.devRef .tc main_v10] (by decide) (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl | rfl | rfl
  · show ({Proc.devRef .tc main_v8, Proc.devRef .tc main_v9} : Finset (DevRef τ sig)) ⊆ tailS; decide
  · show ({Proc.devRef .tc main_cst_0} : Finset (DevRef τ sig)) ⊆ tailS; decide
  · show ({Proc.devRef .tc main_v9, Proc.devRef .tc main_cst_0, Proc.devRef .tc main_v10} : Finset (DevRef τ sig)) ⊆ tailS; decide

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem Wx_v8 (c : Dev nD) (X) : Wx m c X (Proc.devRef .tc main_v8) = X := Function.update_self _ _ _
theorem Wx_v9 (c : Dev nD) (X) : Wx m c X (Proc.devRef .tc main_v9) = V0 m c (Proc.devRef .tc main_v9) := Function.update_of_ne (by decide) _ _
theorem Wx_cst_0 (c : Dev nD) (X) : Wx m c X (Proc.devRef .tc main_cst_0) = V0 m c (Proc.devRef .tc main_cst_0) := Function.update_of_ne (by decide) _ _
theorem Wx_v10 (c : Dev nD) (X) : Wx m c X (Proc.devRef .tc main_v10) = V0 m c (Proc.devRef .tc main_v10) := Function.update_of_ne (by decide) _ _

/-- None of the three lines writes the region's result array. -/
theorem Wy_v8 (c : Dev nD) (X) : StableHlo.after (List.flatten [hostOps1]) (Wx m c X) (Proc.devRef .tc main_v8) = X :=
  (StableHlo.after_of_forall_not_mem (b := Proc.devRef .tc main_v8) _ _ (List.forall_iff_forall_mem.mp (by
    simp only [hostOps1, List.flatten_cons, List.flatten_nil, List.append_nil, List.Forall, StableHlo.nullary_writes, StableHlo.unary_writes, StableHlo.binary_writes, StableHlo.reshape_writes, Finset.mem_singleton]
    repeat' apply And.intro
    all_goals exact StableHlo.devRef_ne_of_ne (by decide)))).trans (Wx_v8 m c X)

/-- What the launch gives back beside the arrays: the input array as entered and the program's result. -/
def Zout (c : Dev nD) : sProp 𝕄 :=
  iprop((((c.tc : Thread nD τ).loc main_arg0) ↦{fullShare} V m c main_arg0)
    ∗ (((c.tc : Thread nD τ).loc main_v10) ↦{fullShare} Wy m c ((dats 0 c).arrAt 2 cfg0.N) (Proc.devRef .tc main_v10)))

set_option backward.isDefEq.respectTransparency.types false in
/-- From the region's exit the three host lines run within the four buffers they touch — the region's result array,
    held whole by window 2, and three of the buffers that bypass the region — and hand the arrays back unchanged. -/
theorem htail (𝒱₀ : Variants) (c : Dev nD) (Q' : PUnit → sProp 𝕄) :
    iprop((iprop((dats 0 c).arrays ((dats 0 c).arrAt · cfg0.N) ∗ Zout m dats c) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (pcfgs (F := F)) defs₀) (Variants.lift 𝒱₀) (c.tc : Thread nD τ) none) Set.univ (Pipeline.chain [StableHlo.seq hostOps1]) Q' := by
  have e2 : ((cfgs 0).win 2).arr.view.set = Finset.univ := (arr_whole0 2).set_eq_univ
  have s2 : (dats 0 c).share 2 = fullShare := if_pos rfl
  have hrun := Pipeline.wp_seqs_then (Ix := Unit) (Name := ℕ) (U := UR sig nD τ) (Lvl := ℕ) (pcfgs (F := F)) defs₀ 𝒱₀ c tailS [] [hostOps1]
    (tail_sub) (tail_fresh) (Wx m c ((dats 0 c).arrAt 2 cfg0.N)) (K := Q')
  rw [held_tailS, held_tailS, Wx_v8, Wx_v9, Wx_cst_0, Wx_v10, Wy_v8 m c ((dats 0 c).arrAt 2 cfg0.N)] at hrun
  unfold Dat.arrays Zout
  rw [bigSep_W0, Pipeline.unscopedRestP_none, unscopedRest0_eq, e2, s2]
  iintro ⟨Hk, Hb, ⟨H0, H1, H2⟩, ⟨Ha0, Hv0, Hv1, Hcst, Hv2, Hv3, Hv4, Hv5, Hv6, Hv9, Hc0, Hv10⟩⟩
  iapply hrun $$ [Hb H2 Hv9 Hc0 Hv10]
  · isplitl [Hb]; · iexact Hb
    isplitl [H2]; · iexact H2
    isplitl [Hv9]; · iexact Hv9
    isplitl [Hc0]; · iexact Hc0
    iexact Hv10
  iintro ⟨Hb, H2, Hv9, Hc0, Hv10⟩
  rw [Pipeline.chain_nil, wp_pure]
  imodintro
  iapply Hk
  isplitl [H0 H1 H2]
  · isplitl [H0]; · iexact H0
    isplitl [H1]; · iexact H1
    iexact H2
  · isplitl [Ha0]; · iexact Ha0
    iexact Hv10

/-! ## The run -/

set_option backward.isDefEq.respectTransparency.types false in
/-- Every weakly fair execution of @main terminates; the program's result ends at what the three host lines make
    of the output array the pipeline leaves (`Wy` at the array's final contents), and the input array is as launched
    through the host prefix (`V`). For ANY proof data of the pipeline whose arrays are the region-entry contents,
    whose two input windows hold the shared array at complementary half shares, whose invariant is the scoped
    rest, owing nothing, and whose body obligation holds. -/
theorem run_core (hbody : ∀ c, BodyObligation (dats 0 c) (defs₀ (F := F)) Variants.none () Set.univ)
    (hA : ∀ c w, (dats 0 c).A w = V m c (Pipeline.arrRef spec0 w))
    (hq0 : ∀ c, (dats 0 c).q 0 = fullShare.left) (hq1 : ∀ c, (dats 0 c).q 1 = fullShare.right)
    (hΦ : ∀ c t, (dats 0 c).Φ t = Pipeline.scopedRest spec0 c) (howed : ∀ c t, (dats 0 c).owed t = 0) :
    θ_run (defs (F := F)) (onTc (τ := τ) (main (F := F))) (s₀ m ρ) (fun r => ∀ c : Dev nD,
      r.2.mem ((c.tc : Thread nD τ).loc main_v10) = Wy m c ((dats 0 c).arrAt 2 cfg0.N) (Proc.devRef .tc main_v10)
      ∧ r.2.mem ((c.tc : Thread nD τ).loc main_arg0) = V m c main_arg0) :=
  Pipeline.θ_run_region_noSem_pf_tail (fun p => (cfgs p).toPCfg) (fun p => (cfgs p).toPCfg_adm) dats () cellOf_inj (0 : Fin 1) winFacts₀0
    (Pipeline.PreFacts.none _) emb₁ defs₀ Variants.none m ρ main
    (fun _ => Pipeline.chain [StableHlo.seq hostOps1]) (fun c => (hbody c).loose) block_pos0 arr_whole0 stage_whole0 howed
    (u₀ := initOf (Pipeline.cells cfgs cellOf_inj) (Pipeline.launchToks cfgs cellOf_inj)) (hu₀ := .rfl)
    (V := V m) (hmain := hmain m Variants.none) (hsplit := hsplit m dats hA hq0 hq1) (hpf := fun _ k => k.elim0)
    (X := fun _ => iprop(emp)) (Y := fun _ => iprop(emp))
    (Z := fun c => Pipeline.unscopedRestP Pipeline.Prefetch.none spec0 c (V m c)) (Z' := Zout m dats)
    (hX := fun c => by
      iintro H
      isplitr; · iempintro
      iexact H)
    (hin := fun c => by
      rw [hΦ]
      iintro ⟨-, -, HR⟩
      iexact HR)
    (hout := fun c => by
      rw [hΦ]
      iintro HR
      isplitr; · iempintro
      iexact HR)
    (htail := htail m dats Variants.none)
    (QY := fun c s => s.mem ((c.tc : Thread nD τ).loc main_v10) = Wy m c ((dats 0 c).arrAt 2 cfg0.N) (Proc.devRef .tc main_v10)
      ∧ s.mem ((c.tc : Thread nD τ).loc main_arg0) = V m c main_arg0)
    (hY := fun c s' => by
      unfold Zout
      iintro ⟨-, ⟨Ha, Hv⟩, HSI⟩
      imodintro
      icombine HSI Ha gives %h1
      icombine HSI Hv gives %h2
      isplitr
      · ipureintro; exact ⟨Buf.eq_of_forall_mem_univ h2, Buf.eq_of_forall_mem_univ h1⟩
      · iexact HSI)
    (hQ := fun s h c => (h c).2.2)

end Cert.Kernel.Launch
end
-- ==== Proof.KI.FrameRuns.lean ====
import proofs.«154974_j12833362280503_1_alg».proof.Proof.Gen.KernelIdeal.Launch
import proofs.«154974_j12833362280503_1_alg».proof.Proof.Gen.KernelIdeal.Skeleton
import proofs.«154974_j12833362280503_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The buffers as the region finds them -/

/-- Core `c`'s buffer contents when the region is entered, as a valuation: the launch memory after the nine
    host operations that normalise the rows and round them to bf16. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-array input (window 0) sits in its staging buffer at every point: it is moved there at the first
    point and its block index never changes afterwards. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row-block input (window 1) holds rows `256 t … 256 t + 255` of the same array at point `t`: it is moved
    anew at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition under which the body first clears the accumulator: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (by decide +kernel : ∀ t : Fin grid0.N, cond0_0 (grid0.coords t) ↔ t.val % 32 = 0)

/-! ## The staging memrefs at a point -/

/-- The accumulator's one staging buffer, through which its contents are stated. -/
abbrev VO0_2 : View sig .tc .vmem S1x1 .f32 := (Memref.whole cc0_stg2_0 : Memref sig .tc .vmem S1x1 .f32).view
/-- Each window's current staging memref at point `t`, and that it is a whole buffer. -/
abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

/-! ## The body on any whole staging memrefs -/

set_option maxHeartbeats 1000000 in
/-- The body at the first point (the accumulator is cleared, then the point's term is added): on whole
    memrefs, the two inputs at their contents and the accumulator at any contents, it runs to the continuation
    holding the inputs as they were and the accumulator with the pieces its two stores wrote, last first. -/
noncomputable def kernelRun0_A (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__dcc_kernel i arg1 harg1 arg2 harg2 arg3 harg3) K } := by
  refine ⟨?_, fun E K => ?run⟩
  case run =>
    simp only [cc0__dcc_kernel_eq_skeleton]; unfold cc0__dcc_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%d2, %f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

set_option maxHeartbeats 1000000 in
/-- The body at a later point (the point's term is added to the accumulator as found): on whole memrefs, the two
    inputs and the accumulator at their contents, it runs to the continuation holding the inputs as they were and the
    accumulator with the piece its one store wrote. -/
noncomputable def kernelRun0_B (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)) -∗ K ⟨⟩))
          ⊢ wp frame (wpE (defs₀ (F := F)) Variants.none c none) E (cc0__dcc_kernel i arg1 harg1 arg2 harg2 arg3 harg3) K } := by
  refine ⟨?_, fun E K => ?run⟩
  case run =>
    simp only [cc0__dcc_kernel_eq_skeleton]; unfold cc0__dcc_kernel_skel
    simp only [k0_part2_eq_skeleton]; unfold k0_part2_skel
    simp only [k0_part1_eq_skeleton]; unfold k0_part1_skel
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.FrameData.lean ====
import proofs.«154974_j12833362280503_1_alg».proof.Proof.KI.FrameRuns
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## What each case leaves in the accumulator -/

/-- At the first point the two stores' pieces cover the one-entry block. -/
theorem cover0_A_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y

/-- What the first point leaves in the accumulator: its pieces read back. -/
def out0_A_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) : Vec F S1x1 .f32 :=
  VO0_2.read (Elt F) (VO0_2.writes (Elt F) VO0_2.junk (kernelRun0_A c i arg1 harg1 arg2 harg2 arg3 harg3 hc0 x0 x1).1)

/-- At a later point the one store's piece covers the block. -/
theorem cover0_B_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y

/-- What a later point leaves in the accumulator, found at `xo2`: its piece read back. -/
def out0_B_2 (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) : Vec F S1x1 .f32 :=
  VO0_2.read (Elt F) (VO0_2.writes (Elt F) VO0_2.junk (kernelRun0_B c i arg1 harg1 arg2 harg2 arg3 harg3 hc0 x0 x1 xo2).1)

/-! ## The running sum, point by point -/

/-- What the accumulator holds after the body at position `n`: the first point's value at `n = 0`, afterwards the
    later point's value over what the point before left (the buffer is not written back in between). -/
def outsAt0 (c : Dev nD) : (n : ℕ) → n < cfg0.N → Vec F S1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk m c 0 ⟨0, hn⟩) (iblk m c 1 ⟨0, hn⟩)
  | n + 1, hn =>
    if h0 : (n + 1) % 32 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk m c 0 ⟨n + 1, hn⟩) (iblk m c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn))

/-- At the first point: that point's value. -/
theorem outsAt0_A (c : Dev nD) (t : Fin cfg0.N) (h0 : t.val % 32 = 0) :
    outsAt0 m c t.val t.isLt = out0_A_2 c (grid0.coords t) (ms0_0 t) (hs0_0 t) (ms0_1 t) (hs0_1 t) (ms0_2 t) (hs0_2 t) ((hcond0_0 t).mpr h0) (iblk m c 0 t) (iblk m c 1 t) := by
  obtain ⟨n, hn⟩ := t
  cases n with
  | zero => exact rfl
  | succ n => exact (dif_pos h0).trans rfl

/-- At a later point: that point's value over what the point before left. -/
theorem outsAt0_B (c : Dev nD) (t : Fin cfg0.N) (h0 : ¬t.val % 32 = 0) :
    outsAt0 m c t.val t.isLt = out0_B_2 c (grid0.coords t) (ms0_0 t) (hs0_0 t) (ms0_1 t) (hs0_1 t) (ms0_2 t) (hs0_2 t) (fun h => h0 ((hcond0_0 t).mp h)) (iblk m c 0 t) (iblk m c 1 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's
    buffer at its block and the accumulator at the running sum; the invariant the scoped rest; nothing owed; the
    two input windows read one array, so each holds half of the permission to it, the output the whole of its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt)
  Φ _ := Pipeline.scopedRest spec0 c
  q := fun w => match w with
    | ⟨0, _⟩ => fullShare.left
    | ⟨1, _⟩ => fullShare.right
    | _ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a later point the accumulator holds what the body left at the point before: the buffer is written back after
    the last point only. -/
theorem before0_2_B (c : Dev nD) (t : Fin cfg0.N) (h0 : ¬t.val % 32 = 0) (d) :
    (dats m 0 c).before 2 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 800000 in
/-- The body at any point: the inputs' buffers hold their blocks; at the first point the accumulator is at anything and
    is cleared, at a later point it holds the running sum of the point before; the invariant passes through unread
    and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 32 := lt_of_lt_of_eq t.isLt (show cfg0.N = 32 from N_0)
  by_cases h0 : t.val % 32 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B m c t h0]
    simp only [before0_2_B m c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The accumulator's value per case, as one expression in the point's blocks -/

/-- The zero offsets, as the body's accesses spell them. -/
theorem hz2 : (![0, 0] : Fin 2 → ℕ) = fun _ => 0 := by
  funext a; fin_cases a <;> rfl

/-- The first point leaves the point's term added to zero. -/
theorem out0_A_2_eq (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : cond0_0 i) (x0 : Vec F S8192x128 .bf16) (x1 : Vec F S256x128 .bf16) :
    out0_A_2 c i arg1 harg1 arg2 harg2 arg3 harg3 hc0 x0 x1
      = k0_pay6 (BitVec.ofNat 32 (i 0).val) (k0_pay2 x1 x0) k0_pay3 (iota .tc S1x8192 32 [1] iota_S1x8192_d1_w32) 64#32 k0_pay4 k0_pay5 (k0_pay1 (F := F)) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x1) hz2]
  simp only [View.readAt_eq_ld, harg1.read_unread, harg2.read_unread, harg3.read_unread, View.ld_unit_zero (S := S8192x128) hz2, View.ld_unit_zero (S := S256x128) hz2, View.ld_unit_zero (S := S1x1) hz2, View.readCov_unit_zero (S := S1x1) _ hz2]

/-- A later point leaves the point's term added to what it found. -/
theorem out0_B_2_eq (c : Dev nD) (i : grid0.Coords) (arg1 : Memref sig .tc .vmem S8192x128 .bf16) (harg1 : arg1.IsWhole)
    (arg2 : Memref sig .tc .vmem S256x128 .bf16) (harg2 : arg2.IsWhole) (arg3 : Memref sig .tc .vmem S1x1 .f32) (harg3 : arg3.IsWhole)
    (hc0 : ¬cond0_0 i) (x0 : Vec F S8192x128 .bf16) (x1 : Vec F S256x128 .bf16) (xo2 : Vec F S1x1 .f32) :
    out0_B_2 c i arg1 harg1 arg2 harg2 arg3 harg3 hc0 x0 x1 xo2
      = k0_pay6 (BitVec.ofNat 32 (i 0).val) (k0_pay2 x1 x0) k0_pay3 (iota .tc S1x8192 32 [1] iota_S1x8192_d1_w32) 64#32 k0_pay4 k0_pay5 xo2 := by
  unfold out0_B_2
  rw [View.read_writes_eq_canon _ _ _ (cover0_B_2 c i arg1 harg1 arg2 harg2 arg3 harg3 hc0 x0 x1 xo2)]
  unfold kernelRun0_B
  dsimp only
  sl_unfold_words
  rw [View.canon_unit_zero (S := S1x1) hz2]
  simp only [View.readAt_eq_ld, harg1.read_unread, harg2.read_unread, harg3.read_unread, View.ld_unit_zero (S := S8192x128) hz2, View.ld_unit_zero (S := S256x128) hz2, View.ld_unit_zero (S := S1x1) hz2]

end Cert.KernelIdeal.Hand

end
-- ==== Proof.KI.Launch.lean ====
/-
  The launch of the kernel program: the host lines before the pallas_call, the pipelined region, the host lines after.

  The pallas_call has three windows: window 0 stages the whole 8192 × 128 array of normalised rows once, window 1 stages
  its 256-row block t at grid point t, window 2 is the 1 × 1 output, written back once, after the last point. Windows
  0 and 1 read ONE array. Ownership of that array is therefore split in two complementary halves of the full share,
  one per window (reading needs only a positive share, and neither window writes); the output's array is held whole.
  Apart from that split everything is the usual run of a one-region program: the nine host lines before the region run
  within the unscoped buffers and leave them at the contents `V`; the region runs the body at the 32 grid points from
  the proof data's invariant (here only the scoped buffers no window stages, of which there are none); after the region
  the three last host lines (flatten the 1 × 1 output to a scalar, make the constant 8192, divide) run within the four
  buffers they touch — the output array, handed back whole by window 2, and three buffers that bypassed the region.
  At the end the program's result holds what those three lines compute from the output array's final contents
  (`Wy`), and the input array, which nothing writes, is as it was.

  The theorem is stated for any proof data of the pipeline with the listed properties, so that it serves the program
  read at the word level and read at the ideal values alike.
-/
import proofs.«154974_j12833362280503_1_alg».proof.Proof.Gen.KernelIdeal.Launch
import proofs.«154974_j12833362280503_1_alg».proof.Proof.Gen.KernelIdeal.Points
import Idealize.ShloMosaic.Lib.Pipeline.FrameSuffix
import Idealize.ShloMosaic.Lib.Pipeline.Value
import Idealize.ShloMosaic.Lib.Tactic
import Idealize.ShloMosaic.Lib.StableHlo.Run

set_option maxRecDepth 16384

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers' contents when the region is entered: after the nine host operations before it. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the three later host operations, the buffers at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- None of the nine lines before the region writes the input array: the region finds it as launched. -/
theorem V_main_arg0 (c : Dev nD) : V m c main_arg0 = m ((c : Thread nD τ).loc main_arg0) := by
  show StableHlo.after (List.flatten [hostOps0 (F := F)]) (fun b => m (c, b)) (Proc.devRef .tc main_arg0) = m ((c : Thread nD τ).loc main_arg0)
  simp only [List.flatten_cons, List.flatten_nil, List.append_nil]
  dsimp only [hostOps0]
  after_results
variable (dats : (p : Fin 1) → (c : Dev nD) → Dat τ (Elt F) Unit ℕ (UR sig nD τ) ℕ (cfgs p) c)

/-- The one buffer behind windows 0 and 1 is split between them, half a share each; window 2's array is held whole. -/
theorem hsplit (hA : ∀ c w, (dats 0 c).A w = V m c (Pipeline.arrRef spec0 w))
    (hq0 : ∀ c, (dats 0 c).q 0 = fullShare.left) (hq1 : ∀ c, (dats 0 c).q 1 = fullShare.right) (c : Dev nD) :
    (Pipeline.arrBufs spec0 c (V m c) : sProp 𝕄) ⊢ (dats 0 c).arrays ((dats 0 c).arrAt · 0) := by
  unfold Pipeline.arrBufs Dat.arrays
  rw [bigSep_W0, bigSep_eq_bigSepL_of_eq [main_v7, main_v8] (by decide) (by decide)]
  have e0 : ((cfgs 0).win 0).arr.view.set = Finset.univ := (arr_whole0 0).set_eq_univ
  have e2 : ((cfgs 0).win 2).arr.view.set = Finset.univ := (arr_whole0 2).set_eq_univ
  have s0 : (dats 0 c).share 0 = fullShare.left := (if_neg (by decide)).trans (hq0 c)
  have s1 : (dats 0 c).share 1 = fullShare.right := (if_neg (by decide)).trans (hq1 c)
  have s2 : (dats 0 c).share 2 = fullShare := if_pos rfl
  have a0 : (dats 0 c).arrAt 0 0 = V m c main_v7 := hA c 0
  have a1 : (dats 0 c).arrAt 1 0 = V m c main_v7 := hA c 1
  have a2 : (dats 0 c).arrAt 2 0 = V m c main_v8 := hA c 2
  simp only [bigSepL]
  show iprop(((c.tc : Thread nD τ).loc main_v7 ↦{fullShare} V m c main_v7) ∗ ((c.tc : Thread nD τ).loc main_v8 ↦{fullShare} V m c main_v8)) ⊢ _
  rw [e0, e2, s0, s1, s2, a0, a1, a2]
  have hsh : ((c.tc : Thread nD τ).loc main_v7 ↦{fullShare} V m c main_v7 : sProp 𝕄) ⊢ iprop(((c.tc : Thread nD τ).loc main_v7 ↦{fullShare.left} V m c main_v7) ∗ ((c.tc : Thread nD τ).loc main_v7 ↦{fullShare.right} V m c main_v7)) :=
    (pointsTo_share (PosShare.mem_left_op_right fullShare)).1
  iintro ⟨H7, H8⟩
  ihave H := hsh $$ H7
  icases H with ⟨Hl, Hr⟩
  isplitl [Hl]; · iexact Hl
  isplitl [Hr]; · iexact Hr
  iexact H8

/-! ## The three host lines after the region -/

/-- The four buffers those lines touch: the region's result and the three they write. -/
abbrev tailS : Finset (DevRef τ sig) :=
  {Proc.devRef .tc main_v8, Proc.devRef .tc main_v9, Proc.devRef .tc main_cst_0, Proc.devRef .tc main_v10}

/-- The contents on leaving the region: as entered, but the region's result array at X. -/
abbrev Wx (c : Dev nD) (X : (Proc.devRef (τ := τ) .tc main_v8).ty.Contents (Elt F)) : Valuation τ sig (Elt F) :=
  Function.update (V0 m c) (Proc.devRef .tc main_v8) X
/-- and after the three lines. -/
abbrev Wy (c : Dev nD) (X : (Proc.devRef (τ := τ) .tc main_v8).ty.Contents (Elt F)) : Valuation τ sig (Elt F) :=
  StableHlo.after (List.flatten [hostOps1]) (Wx m c X)

theorem held_tailS (c : Dev nD) (W : Valuation τ sig (Elt F)) :
    (StableHlo.held (c.tc : Thread nD τ) tailS W : sProp 𝕄)
      = iprop((((c.tc : Thread nD τ).loc main_v8) ↦{fullShare} W (Proc.devRef .tc main_v8)) ∗ (((c.tc : Thread nD τ).loc main_v9) ↦{fullShare} W (Proc.devRef .tc main_v9))
          ∗ (((c.tc : Thread nD τ).loc main_cst_0) ↦{fullShare} W (Proc.devRef .tc main_cst_0)) ∗ (((c.tc : Thread nD τ).loc main_v10) ↦{fullShare} W (Proc.devRef .tc main_v10))) := by
  unfold StableHlo.held
  exact bigSep_eq_bigSepL_of_eq [Proc.devRef .tc main_v8, Proc.devRef .tc main_v9, Proc.devRef .tc main_cst_0, Proc.devRef .tc main_v10] (by decide) (by decide) _

theorem tail_sub : ∀ ops ∈ ([hostOps1] : List (List (HloOp τ sig (Elt F)))), ∀ op ∈ ops, op.bufs ⊆ tailS := by
  intro ops hops op hop
  simp only [List.mem_cons, List.mem_nil_iff, or_false] at hops
  rcases hops with rfl
  simp only [hostOps1, List.mem_cons, List.mem_nil_iff, or_false] at hop
  rcases hop with rfl | rfl | rfl
  · show ({Proc.devRef .tc main_v8, Proc.devRef .tc main_v9} : Finset (DevRef τ sig)) ⊆ tailS; decide
  · show ({Proc.devRef .tc main_cst_0} : Finset (DevRef τ sig)) ⊆ tailS; decide
  · show ({Proc.devRef .tc main_v9, Proc.devRef .tc main_cst_0, Proc.devRef .tc main_v10} : Finset (DevRef τ sig)) ⊆ tailS; decide

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem Wx_v8 (c : Dev nD) (X) : Wx m c X (Proc.devRef .tc main_v8) = X := Function.update_self _ _ _
theorem Wx_v9 (c : Dev nD) (X) : Wx m c X (Proc.devRef .tc main_v9) = V0 m c (Proc.devRef .tc main_v9) := Function.update_of_ne (by decide) _ _
theorem Wx_cst_0 (c : Dev nD) (X) : Wx m c X (Proc.devRef .tc main_cst_0) = V0 m c (Proc.devRef .tc main_cst_0) := Function.update_of_ne (by decide) _ _
theorem Wx_v10 (c : Dev nD) (X) : Wx m c X (Proc.devRef .tc main_v10) = V0 m c (Proc.devRef .tc main_v10) := Function.update_of_ne (by decide) _ _

/-- None of the three lines writes the region's result array. -/
theorem Wy_v8 (c : Dev nD) (X) : StableHlo.after (List.flatten [hostOps1]) (Wx m c X) (Proc.devRef .tc main_v8) = X :=
  (StableHlo.after_of_forall_not_mem (b := Proc.devRef .tc main_v8) _ _ (List.forall_iff_forall_mem.mp (by
    simp only [hostOps1, List.flatten_cons, List.flatten_nil, List.append_nil, List.Forall, StableHlo.nullary_writes, StableHlo.unary_writes, StableHlo.binary_writes, StableHlo.reshape_writes, Finset.mem_singleton]
    repeat' apply And.intro
    all_goals exact StableHlo.devRef_ne_of_ne (by decide)))).trans (Wx_v8 m c X)

/-- What the launch gives back beside the arrays: the input array as entered and the program's result. -/
def Zout (c : Dev nD) : sProp 𝕄 :=
  iprop((((c.tc : Thread nD τ).loc main_arg0) ↦{fullShare} V m c main_arg0)
    ∗ (((c.tc : Thread nD τ).loc main_v10) ↦{fullShare} Wy m c ((dats 0 c).arrAt 2 cfg0.N) (Proc.devRef .tc main_v10)))

set_option backward.isDefEq.respectTransparency.types false in
/-- From the region's exit the three host lines run within the four buffers they touch — the region's result array,
    held whole by window 2, and three of the buffers that bypass the region — and hand the arrays back unchanged. -/
theorem htail (𝒱₀ : Variants) (c : Dev nD) (Q' : PUnit → sProp 𝕄) :
    iprop((iprop((dats 0 c).arrays ((dats 0 c).arrAt · cfg0.N) ∗ Zout m dats c) -∗ Q' ⟨⟩)
        ∗ boundary (c.tc : Thread nD τ) ∗ (dats 0 c).arrays ((dats 0 c).arrAt · cfg0.N)
        ∗ Pipeline.unscopedRestP Pipeline.Prefetch.none spec0 c (V m c))
      ⊢ wp frame (wpE (Pipeline.defs (pcfgs (F := F)) defs₀) (Variants.lift 𝒱₀) (c.tc : Thread nD τ) none) Set.univ (Pipeline.chain [StableHlo.seq hostOps1]) Q' := by
  have e2 : ((cfgs 0).win 2).arr.view.set = Finset.univ := (arr_whole0 2).set_eq_univ
  have s2 : (dats 0 c).share 2 = fullShare := if_pos rfl
  have hrun := Pipeline.wp_seqs_then (Ix := Unit) (Name := ℕ) (U := UR sig nD τ) (Lvl := ℕ) (pcfgs (F := F)) defs₀ 𝒱₀ c tailS [] [hostOps1]
    (tail_sub) (tail_fresh) (Wx m c ((dats 0 c).arrAt 2 cfg0.N)) (K := Q')
  rw [held_tailS, held_tailS, Wx_v8, Wx_v9, Wx_cst_0, Wx_v10, Wy_v8 m c ((dats 0 c).arrAt 2 cfg0.N)] at hrun
  unfold Dat.arrays Zout
  rw [bigSep_W0, Pipeline.unscopedRestP_none, unscopedRest0_eq, e2, s2]
  iintro ⟨Hk, Hb, ⟨H0, H1, H2⟩, ⟨Ha0, Hv0, Hv1, Hcst, Hv2, Hv3, Hv4, Hv5, Hv6, Hv9, Hc0, Hv10⟩⟩
  iapply hrun $$ [Hb H2 Hv9 Hc0 Hv10]
  · isplitl [Hb]; · iexact Hb
    isplitl [H2]; · iexact H2
    isplitl [Hv9]; · iexact Hv9
    isplitl [Hc0]; · iexact Hc0
    iexact Hv10
  iintro ⟨Hb, H2, Hv9, Hc0, Hv10⟩
  rw [Pipeline.chain_nil, wp_pure]
  imodintro
  iapply Hk
  isplitl [H0 H1 H2]
  · isplitl [H0]; · iexact H0
    isplitl [H1]; · iexact H1
    iexact H2
  · isplitl [Ha0]; · iexact Ha0
    iexact Hv10

/-! ## The run -/

set_option backward.isDefEq.respectTransparency.types false in
/-- Every weakly fair execution of @main terminates; the program's result ends at what the three host lines make
    of the output array the pipeline leaves (`Wy` at the array's final contents), and the input array is as launched
    through the host prefix (`V`). For ANY proof data of the pipeline whose arrays are the region-entry contents,
    whose two input windows hold the shared array at complementary half shares, whose invariant is the scoped
    rest, owing nothing, and whose body obligation holds. -/
theorem run_core (hbody : ∀ c, BodyObligation (dats 0 c) (defs₀ (F := F)) Variants.none () Set.univ)
    (hA : ∀ c w, (dats 0 c).A w = V m c (Pipeline.arrRef spec0 w))
    (hq0 : ∀ c, (dats 0 c).q 0 = fullShare.left) (hq1 : ∀ c, (dats 0 c).q 1 = fullShare.right)
    (hΦ : ∀ c t, (dats 0 c).Φ t = Pipeline.scopedRest spec0 c) (howed : ∀ c t, (dats 0 c).owed t = 0) :
    θ_run (defs (F := F)) (onTc (τ := τ) (main (F := F))) (s₀ m ρ) (fun r => ∀ c : Dev nD,
      r.2.mem ((c.tc : Thread nD τ).loc main_v10) = Wy m c ((dats 0 c).arrAt 2 cfg0.N) (Proc.devRef .tc main_v10)
      ∧ r.2.mem ((c.tc : Thread nD τ).loc main_arg0) = V m c main_arg0) :=
  Pipeline.θ_run_region_noSem_pf_tail (fun p => (cfgs p).toPCfg) (fun p => (cfgs p).toPCfg_adm) dats () cellOf_inj (0 : Fin 1) winFacts₀0
    (Pipeline.PreFacts.none _) emb₁ defs₀ Variants.none m ρ main
    (fun _ => Pipeline.chain [StableHlo.seq hostOps1]) (fun c => (hbody c).loose) block_pos0 arr_whole0 stage_whole0 howed
    (u₀ := initOf (Pipeline.cells cfgs cellOf_inj) (Pipeline.launchToks cfgs cellOf_inj)) (hu₀ := .rfl)
    (V := V m) (hmain := hmain m Variants.none) (hsplit := hsplit m dats hA hq0 hq1) (hpf := fun _ k => k.elim0)
    (X := fun _ => iprop(emp)) (Y := fun _ => iprop(emp))
    (Z := fun c => Pipeline.unscopedRestP Pipeline.Prefetch.none spec0 c (V m c)) (Z' := Zout m dats)
    (hX := fun c => by
      iintro H
      isplitr; · iempintro
      iexact H)
    (hin := fun c => by
      rw [hΦ]
      iintro ⟨-, -, HR⟩
      iexact HR)
    (hout := fun c => by
      rw [hΦ]
      iintro HR
      isplitr; · iempintro
      iexact HR)
    (htail := htail m dats Variants.none)
    (QY := fun c s => s.mem ((c.tc : Thread nD τ).loc main_v10) = Wy m c ((dats 0 c).arrAt 2 cfg0.N) (Proc.devRef .tc main_v10)
      ∧ s.mem ((c.tc : Thread nD τ).loc main_arg0) = V m c main_arg0)
    (hY := fun c s' => by
      unfold Zout
      iintro ⟨-, ⟨Ha, Hv⟩, HSI⟩
      imodintro
      icombine HSI Ha gives %h1
      icombine HSI Hv gives %h2
      isplitr
      · ipureintro; exact ⟨Buf.eq_of_forall_mem_univ h2, Buf.eq_of_forall_mem_univ h1⟩
      · iexact HSI)
    (hQ := fun s h c => (h c).2.2)

end Cert.KernelIdeal.Launch
end
-- ==== Proof.Spec.lean ====
/-
  The two loss functions this certificate equates, written as plain functions of the input array over the extended
  reals, with no program in sight.

  The input is a 128 × 64 × 128 array x (batch i, epoch j, coordinate k). Every row (i, j) is divided by its Euclidean
  norm, giving f = nrm x. With the rows flattened (row r = 64 i + j of 8192), the kernel's loss is

      lossK g = ( ∑ r, [ log ∑ s exp(⟨g r, g s⟩ · c) − log ∑ s∼r exp(⟨g r, g s⟩ · c) ] ) / 8192,

  where s ∼ r means that rows r and s belong to the same batch (r / 64 = s / 64) and c is the reciprocal of the
  temperature; it accumulates the bracket over 32 blocks of 256 consecutive rows (kblock). The reference's loss is

      lossR f = ( ∑ i j, − log ( P / (P + (T − P)) ) ) / 8192,   P = ∑ n exp(⟨f m n, f i j⟩ / d) at m = i,   T = ∑ n m exp(⟨f m n, f i j⟩ / d),

  with d the temperature. The two agree when every entry of x is a real number and no row of x is zero.
-/
import Idealize.ShloMosaic.PureOps.Ideal
import Idealize.ShloMosaic.Lib.ValueIdx

noncomputable section

open scoped BigOperators

namespace Cert.Spec

open Idealize.ShloMosaic Idealize.ShloMosaic.ValueIdx

/-- The input array read at (batch, epoch, coordinate). -/
def X3 (x : (⟨3, ![128, 64, 128]⟩ : Shape).Idx → EReal) (i : Fin 128) (j : Fin 64) (k : Fin 128) : EReal := x (ix3 i j k)

/-- Each row divided by its Euclidean norm, the square root of its sum of squares. -/
def nrm (x : Fin 128 → Fin 64 → Fin 128 → EReal) (i : Fin 128) (j : Fin 64) (k : Fin 128) : EReal :=
  Ideal.div (x i j k) (Ideal.sqrt (∑ k' : Fin 128, x i j k' * x i j k'))

/-- The rows flattened: row r of 8192 is epoch r % 64 of batch r / 64. -/
def flat (f : Fin 128 → Fin 64 → Fin 128 → EReal) (r : Fin 8192) (k : Fin 128) : EReal :=
  f ⟨r.val / 64, by have := r.isLt; omega⟩ ⟨r.val % 64, by omega⟩ k

/-- The reciprocal of the temperature as the kernel multiplies by it: 2^27 / 13421773. -/
def cK : EReal := ((134217728 / 13421773 : ℝ) : EReal)
/-- The temperature as the reference divides by it: the single-precision number nearest 0.1, 13421773 / 2^27. -/
def dR : EReal := Ideal.ofBits .f32 0x3DCCCCCD#32
/-- The number of rows, 8192, by which both sides divide the summed loss. -/
def w8192 : EReal := Ideal.ofBits .f32 0x46000000#32

/-! ## The kernel's side, over flattened rows -/

/-- The inner product of rows r and s. -/
def kdot (g : Fin 8192 → Fin 128 → EReal) (r s : Fin 8192) : EReal := ∑ k : Fin 128, g r k * g s k
/-- The exponentiated similarity of rows r and s. -/
def kexp (g : Fin 8192 → Fin 128 → EReal) (r s : Fin 8192) : EReal := Ideal.exp (kdot g r s * cK)
/-- Row r's loss: log of the sum over all rows minus log of the sum over the rows of r's own batch. -/
def krow (g : Fin 8192 → Fin 128 → EReal) (r : Fin 8192) : EReal :=
  Ideal.log (∑ s : Fin 8192, kexp g r s) - Ideal.log (∑ s : Fin 8192, if r.val / 64 = s.val / 64 then kexp g r s else 0)
/-- The summed loss of the 256 rows of block t (rows 256 t … 256 t + 255). -/
def kblock (g : Fin 8192 → Fin 128 → EReal) (t : ℕ) : EReal :=
  ∑ r : Fin 256, if h : 256 * t + r.val < 8192 then krow g ⟨256 * t + r.val, h⟩ else 0
/-- The kernel's loss. -/
def lossK (g : Fin 8192 → Fin 128 → EReal) : EReal := Ideal.div (∑ r : Fin 8192, krow g r) w8192

/-! ## The reference's side, over (batch, epoch) -/

/-- The inner product of row (m, n) with row (i, j). -/
def rdot (f : Fin 128 → Fin 64 → Fin 128 → EReal) (i : Fin 128) (j : Fin 64) (m : Fin 128) (n : Fin 64) : EReal :=
  ∑ k : Fin 128, f m n k * f i j k
/-- The exponentiated similarity, indexed (i, j, n, m) as the reference lays it out. -/
def rexp (f : Fin 128 → Fin 64 → Fin 128 → EReal) (i : Fin 128) (j : Fin 64) (n : Fin 64) (m : Fin 128) : EReal :=
  Ideal.exp (Ideal.div (rdot f i j m n) dR)
/-- The positives of row (i, j): the rows of its own batch. -/
def rpos (f : Fin 128 → Fin 64 → Fin 128 → EReal) (i : Fin 128) (j : Fin 64) : EReal := ∑ n : Fin 64, rexp f i j n i
/-- All rows. -/
def rtot (f : Fin 128 → Fin 64 → Fin 128 → EReal) (i : Fin 128) (j : Fin 64) : EReal := ∑ n : Fin 64, ∑ m : Fin 128, rexp f i j n m
/-- Row (i, j)'s loss as the reference writes it: minus the log of positives over positives plus negatives. -/
def rrow (f : Fin 128 → Fin 64 → Fin 128 → EReal) (i : Fin 128) (j : Fin 64) : EReal :=
  -(Ideal.log (Ideal.div (rpos f i j) (rpos f i j + (rtot f i j - rpos f i j))))
/-- The reference's loss. -/
def lossR (f : Fin 128 → Fin 64 → Fin 128 → EReal) : EReal := Ideal.div (∑ i : Fin 128, ∑ j : Fin 64, rrow f i j) w8192

end Cert.Spec

end
-- ==== Proof.KI.PayMask.lean ====
import proofs.«154974_j12833362280503_1_alg».proof.Proof.Gen.KernelIdeal.Skeleton
import Idealize.ShloMosaic.Lib.ValueIdx
import Idealize.ShloMosaic.Lib.ValueLayout
import Idealize.ShloMosaic.Lib.Pipeline.Value

/-!
  The integer mask of the kernel body: which columns of the 256 × 8192 similarity block belong to the batch of each row.

  Row r of block t is global row 256 t + r; its batch is (256 t + r) / 64 = 4 t + r / 64. Column s has batch s / 64. Both
  quotients are floor divisions, which the program writes with the division that rounds toward zero and a correction that
  fires only for a negative dividend; on the ranges met here it never fires.
-/

noncomputable section

namespace Cert.KernelIdeal.Pay

open Idealize.ShloMosaic Idealize.SL.Sem Idealize.ShloMosaic.ValueIdx Cert.KernelIdeal Cert.KernelIdeal.Gen

/-- Floor division by 64 of a 32-bit signed integer, written with the division that rounds toward zero: the quotient,
    less one when the remainder is not zero and the sign of the dividend differs from the sign of 64. -/
def fdiv (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

instance (x y : BitVec 32) : Decidable (fdiv x = y) := inferInstanceAs (Decidable (_ = _))

set_option maxRecDepth 100000 in
/-- On 0 ≤ n < 8192 the correction never fires and the quotient is n / 64: checked at each of the 8192 values. -/
theorem fdiv_fin (k : Fin 8192) : fdiv (BitVec.ofNat 32 k.val) = BitVec.ofNat 32 (k.val / 64) := by
  revert k
  decide +kernel

/-- The same for a natural number below 8192. -/
theorem fdiv_ofNat (n : ℕ) (hn : n < 8192) : fdiv (BitVec.ofNat 32 n) = BitVec.ofNat 32 (n / 64) :=
  fdiv_fin ⟨n, hn⟩

/-! ## The row side: r / 64 for the 256 rows of a block -/

/-- The row quotient at row r is r / 64. -/
theorem pay3_apply (r : Fin 256) (u : Fin 1) : k0_pay3 (ix2 r u) = BitVec.ofNat 32 (r.val / 64) := by
  have hi : iota .tc S256x1 32 [0] iota_S256x1_d0_w32 (ix2 r u) = BitVec.ofNat 32 r.val :=
    iota_single_apply _ _ _ _ _ _
  have h : k0_pay3 (ix2 r u) = fdiv (iota .tc S256x1 32 [0] iota_S256x1_d0_w32 (ix2 r u)) := rfl
  rw [h, hi]
  exact fdiv_ofNat _ (by have := r.isLt; omega)

/-! ## The column side: s / 64 for the 8192 columns -/

/-- The column quotients, as the body computes them from the column numbers, their truncated quotients and their signs. -/
def colq : IVec S1x8192 32 :=
  select
    (andi
      (cmpi .ne
        (subi (extui 32 k0_pay5 natLt_1_32)
          (extui 32 (cmpi .slt (iota .tc S1x8192 32 [1] iota_S1x8192_d1_w32) (broadcast S1x8192 0#32)) natLt_1_32))
        (broadcast S1x8192 (Scalar.subi (Scalar.extui (Scalar.cmpi .sgt 64#32 0#32)) (Scalar.extui (Scalar.cmpi .slt 64#32 0#32)))))
      (cmpi .ne (remsi (iota .tc S1x8192 32 [1] iota_S1x8192_d1_w32) (broadcast S1x8192 64#32)) (broadcast S1x8192 0#32)))
    (subi k0_pay4 (broadcast S1x8192 1#32))
    k0_pay4

/-- The column quotient at column s is s / 64. -/
theorem colq_apply (u : Fin 1) (s : Fin 8192) : colq (ix2 u s) = BitVec.ofNat 32 (s.val / 64) := by
  have hi : iota .tc S1x8192 32 [1] iota_S1x8192_d1_w32 (ix2 u s) = BitVec.ofNat 32 s.val :=
    iota_single_apply _ _ _ _ _ _
  have h : colq (ix2 u s) = fdiv (iota .tc S1x8192 32 [1] iota_S1x8192_d1_w32 (ix2 u s)) := rfl
  rw [h, hi]
  exact fdiv_fin s

/-! ## The mask -/

/-- The batch of each row of block t: 4 t + r / 64. -/
def rowq (t : ℕ) : IVec S256x1 32 := addi (broadcast S256x1 (Scalar.muli (BitVec.ofNat 32 t) 4#32)) k0_pay3

/-- The mask of block t: at (r, s), whether row r's batch is column s's batch. -/
def mask (t : ℕ) : IVec S256x8192 1 :=
  cmpi .eq (broadcastTo S256x8192 (rowq t) broadcasts_S256x1_S256x8192) (broadcastTo S256x8192 colq broadcasts_S1x8192_S256x8192)

/-- A column [a, 1] broadcast to [a, b] reads, at (p, c), the operand's row p. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ =>
    show 0 = if (1 : ℕ) = 1 then 0 else c.val
    rw [if_pos rfl]

/-- Two small naturals are equal exactly when their 32-bit words are. -/
theorem ofNat_eq_iff (a b : ℕ) (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- The word 4 t + q, for t < 32 and q < 4. -/
theorem rowq_word (t q : ℕ) : IntOp.addi (Scalar.muli (BitVec.ofNat 32 t) 4#32) (BitVec.ofNat 32 q) = BitVec.ofNat 32 (4 * t + q) := by
  apply BitVec.eq_of_toNat_eq
  simp only [IntOp.addi, Scalar.muli, IntOp.muli, BitVec.toNat_add, BitVec.toNat_mul, BitVec.toNat_ofNat]
  omega

/-- The mask at (r, s) is one exactly when global row 256 t + r and column s lie in the same batch of 64. -/
theorem mask_apply (t : ℕ) (ht : t < 32) (r : Fin 256) (s : Fin 8192) :
    mask t (ix2 r s) = if (256 * t + r.val) / 64 = s.val / 64 then 1#1 else 0#1 := by
  have h : mask t (ix2 r s)
      = IntOp.cmpi .eq (broadcastTo S256x8192 (rowq t) broadcasts_S256x1_S256x8192 (ix2 r s))
          (broadcastTo S256x8192 colq broadcasts_S1x8192_S256x8192 (ix2 r s)) := rfl
  rw [h, broadcastTo_a1_ab_apply (by decide) (rowq t) broadcasts_S256x1_S256x8192 r s,
    broadcastTo_1b_ab_apply colq broadcasts_S1x8192_S256x8192 r s, colq_apply]
  have h2 : rowq t (ix2 r (0 : Fin 1)) = IntOp.addi (Scalar.muli (BitVec.ofNat 32 t) 4#32) (k0_pay3 (ix2 r (0 : Fin 1))) := rfl
  rw [h2, pay3_apply, rowq_word]
  have hr := r.isLt
  have hs := s.isLt
  have hiff := ofNat_eq_iff (4 * t + r.val / 64) (s.val / 64) (by omega) (by omega)
  have hq : (256 * t + r.val) / 64 = 4 * t + r.val / 64 := by omega
  rw [hq]
  show BitVec.ofBool (BitVec.ofNat 32 (4 * t + r.val / 64) == BitVec.ofNat 32 (s.val / 64)) = _
  by_cases he : 4 * t + r.val / 64 = s.val / 64
  · rw [if_pos he, he]; simp
  · rw [if_neg he]
    have hb : (BitVec.ofNat 32 (4 * t + r.val / 64) == BitVec.ofNat 32 (s.val / 64)) = false :=
      beq_eq_false_iff_ne.mpr fun h => he (hiff.mp h)
    rw [hb]
    rfl

end Cert.KernelIdeal.Pay

end
-- ==== Proof.KI.Payload.lean ====
import proofs.«154974_j12833362280503_1_alg».proof.Proof.Gen.KernelIdeal.Skeleton
import proofs.«154974_j12833362280503_1_alg».proof.Proof.Spec
import proofs.«154974_j12833362280503_1_alg».proof.Proof.KI.PayMask
import Idealize.ShloMosaic.Lib.ValueIdx
import Idealize.ShloMosaic.Lib.ValueLayout
import Idealize.ShloMosaic.Lib.Pipeline.Value
import Idealize.ShloMosaic.PureOps.Ideal.Laws

/-!
  The arithmetic of the kernel body read as mathematics over the extended reals.

  At grid point t the body holds the 256 query rows 256 t … 256 t + 255 (x1), all 8192 key rows (x0) and the 1 × 1
  accumulator (xo). It forms E[r, s] = exp(⟨x1 r, x0 s⟩ · c), zeroes the columns outside row r's batch of 64, sums each
  row of both blocks, takes log(total) − log(own batch) per row, sums the 256 differences and adds the sum to the
  accumulator. With x1's row r being x0's row 256 t + r this is the accumulator plus the loss of block t.
-/

noncomputable section

open scoped BigOperators

namespace Cert.KernelIdeal.Pay

open Idealize.ShloMosaic Idealize.SL.Sem Idealize.ShloMosaic.ValueIdx Cert.KernelIdeal Cert.KernelIdeal.Gen

/-! ## The zero the accumulator starts from -/

theorem pay1_value : k0_pay1 (F := Ideal) = fun _ => (0 : EReal) := by
  funext i
  show Ideal.ofBits .f32 0x00000000#32 = 0
  exact Ideal.ofBits_zero_f32

/-! ## The similarity block -/

/-- The reciprocal of the temperature is the rational the certificate's table gives it. -/
theorem inv_temperature :
    Named.named (F := Ideal) Cert.KernelIdeal.κ "inv_temperature" (φ := .f32) 0x41200000#32 = Cert.Spec.cK :=
  IdealRules.named_const.ideal_named_scalar _ _ _ _ rfl

theorem lhs_mm_0 (i : S256x8192.Idx) (q : dot_S256x128_S8192x128_S256x8192_1_1_0_0_n_n.contr.Idx) :
    (dot_S256x128_S8192x128_S256x8192_1_1_0_0_n_n.lhsIdx i q 0).val = (i 0).val := by
  unfold DotDims.lhsIdx
  rw [dif_neg (show ¬(0 : Fin S256x128.rank) ∈ dot_S256x128_S8192x128_S256x8192_1_1_0_0_n_n.lhsBatch by decide), dif_pos (show (0 : Fin S256x128.rank) ∈ dot_S256x128_S8192x128_S256x8192_1_1_0_0_n_n.lhsNonContracting by decide)]
  rfl
theorem lhs_mm_1 (i : S256x8192.Idx) (q : dot_S256x128_S8192x128_S256x8192_1_1_0_0_n_n.contr.Idx) :
    (dot_S256x128_S8192x128_S256x8192_1_1_0_0_n_n.lhsIdx i q 1).val = (q ⟨0, by decide⟩).val :=
  dot_S256x128_S8192x128_S256x8192_1_1_0_0_n_n.lhsIdx_val_of_single rfl i q
theorem rhs_mm_0 (i : S256x8192.Idx) (q : dot_S256x128_S8192x128_S256x8192_1_1_0_0_n_n.contr.Idx) :
    (dot_S256x128_S8192x128_S256x8192_1_1_0_0_n_n.rhsIdx i q 0).val = (i 1).val := by
  unfold DotDims.rhsIdx
  rw [dif_neg (show ¬(0 : Fin S8192x128.rank) ∈ dot_S256x128_S8192x128_S256x8192_1_1_0_0_n_n.rhsBatch by decide), dif_pos (show (0 : Fin S8192x128.rank) ∈ dot_S256x128_S8192x128_S256x8192_1_1_0_0_n_n.rhsNonContracting by decide)]
  rfl
theorem rhs_mm_1 (i : S256x8192.Idx) (q : dot_S256x128_S8192x128_S256x8192_1_1_0_0_n_n.contr.Idx) :
    (dot_S256x128_S8192x128_S256x8192_1_1_0_0_n_n.rhsIdx i q 1).val = (q ⟨0, by decide⟩).val :=
  dot_S256x128_S8192x128_S256x8192_1_1_0_0_n_n.rhsIdx_val_of_single rfl i q

/-- The product into a zero block, contracting the coordinate axis of both operands: at (r, s) the inner product of
    row r of the left operand with row s of the right. -/
theorem mm_apply (a : FVec Ideal S256x128 .bf16) (b : FVec Ideal S8192x128 .bf16) (r : Fin 256) (s : Fin 8192) :
    matmul dot_S256x128_S8192x128_S256x8192_1_1_0_0_n_n none a b (constant (F := Ideal) S256x8192 .f32 0x00000000#32) (ix2 r s)
      = ∑ k : Fin 128, a (ix2 r k) * b (ix2 s k) := by
  simp only [matmul]
  rw [Ideal.matmul_constant_zero_apply, ← Equiv.sum_comp (ValueIdx.contrEquiv1 dot_S256x128_S8192x128_S256x8192_1_1_0_0_n_n 128 rfl rfl).symm]
  refine Finset.sum_congr rfl fun k _ => ?_
  have hk := ValueIdx.contrEquiv1_symm_val dot_S256x128_S8192x128_S256x8192_1_1_0_0_n_n 128 rfl rfl k
  have el : dot_S256x128_S8192x128_S256x8192_1_1_0_0_n_n.lhsIdx (ix2 r s) ((ValueIdx.contrEquiv1 dot_S256x128_S8192x128_S256x8192_1_1_0_0_n_n 128 rfl rfl).symm k) = ix2 r k := funext fun a => Fin.ext (by
    match a with
    | ⟨0, _⟩ => exact lhs_mm_0 _ _
    | ⟨1, _⟩ => exact (lhs_mm_1 _ _).trans hk)
  have er : dot_S256x128_S8192x128_S256x8192_1_1_0_0_n_n.rhsIdx (ix2 r s) ((ValueIdx.contrEquiv1 dot_S256x128_S8192x128_S256x8192_1_1_0_0_n_n 128 rfl rfl).symm k) = ix2 s k := funext fun a => Fin.ext (by
    match a with
    | ⟨0, _⟩ => exact rhs_mm_0 _ _
    | ⟨1, _⟩ => exact (rhs_mm_1 _ _).trans hk)
  rw [el, er]

/-- The similarity block at (r, s): exp of the inner product of query row r with key row s, times the reciprocal
    temperature. -/
theorem pay2_apply (x1 : FVec Ideal S256x128 .bf16) (x0 : FVec Ideal S8192x128 .bf16) (r : Fin 256) (s : Fin 8192) :
    k0_pay2 (F := Ideal) x1 x0 (ix2 r s) = Ideal.exp ((∑ k : Fin 128, x1 (ix2 r k) * x0 (ix2 s k)) * Cert.Spec.cK) := by
  have h : k0_pay2 (F := Ideal) x1 x0 (ix2 r s)
      = Ideal.exp (matmul dot_S256x128_S8192x128_S256x8192_1_1_0_0_n_n none
          (shapeCast S256x128 x1 shapeCasts_S256x128_S256x128) (shapeCast S8192x128 x0 shapeCasts_S8192x128_S8192x128)
          (constant (F := Ideal) S256x8192 .f32 0x00000000#32) (ix2 r s)
        * Named.named (F := Ideal) Cert.KernelIdeal.κ "inv_temperature" (φ := .f32) 0x41200000#32) := rfl
  rw [h, shapeCast_self, shapeCast_self, mm_apply, inv_temperature]

/-! ## The block with the columns outside each row's batch zeroed -/

/-- The similarity block v with the mask of block t applied. -/
def sel (t : ℕ) (v : FVec Ideal S256x8192 .f32) : FVec Ideal S256x8192 .f32 :=
  select (mask t) v (broadcast S256x8192 (Scalar.ofBits (F := Ideal) .f32 0x00000000#32))

theorem sel_apply (t : ℕ) (ht : t < 32) (v : FVec Ideal S256x8192 .f32) (r : Fin 256) (s : Fin 8192) :
    sel t v (ix2 r s) = if (256 * t + r.val) / 64 = s.val / 64 then v (ix2 r s) else 0 := by
  have h : sel t v (ix2 r s) = Scalar.select (mask t (ix2 r s)) (v (ix2 r s)) (Ideal.ofBits .f32 0x00000000#32) := rfl
  rw [h, mask_apply t ht, Ideal.ofBits_zero_f32]
  by_cases he : (256 * t + r.val) / 64 = s.val / 64
  · rw [if_pos he, if_pos he]; exact select_one _ _
  · rw [if_neg he, if_neg he]; exact select_zero _ _

/-! ## Row sums -/

/-- The sum over a row's 8192 columns, as a 256 × 1 column. -/
def rowsum (v : FVec Ideal S256x8192 .f32) : FVec Ideal S256x1 .f32 :=
  shapeCast S256x1 (multiReduction (F := Ideal) .add [1] S256 v 0x00000000#32 reduces_S256x8192_S256 (.inl rfl) rfl) shapeCasts_S256_S256x1

theorem lane_sum (v : FVec Ideal S256x8192 .f32) (hφ : FKind.Formats .f32) (hacc : (0x00000000#32 : BitVec 32) = 0x00000000#32)
    (r : Fin 256) :
    multiReduction (F := Ideal) .add [1] S256 v 0x00000000#32 reduces_S256x8192_S256 hφ hacc (ix1 r) = ∑ s : Fin 8192, v (ix2 r s) := by
  refine (Ideal.multiReduction_add_single v 0x00000000#32 reduces_S256x8192_S256 hφ hacc (ix1 r)).trans ?_
  refine Finset.sum_congr rfl fun k _ => congrArg v ?_
  funext a
  match a with
  | ⟨0, _⟩ => rfl
  | ⟨1, _⟩ => rfl

theorem rowsum_apply (v : FVec Ideal S256x8192 .f32) (r : Fin 256) (u : Fin 1) :
    rowsum v (ix2 r u) = ∑ s : Fin 8192, v (ix2 r s) := by
  unfold rowsum
  refine (shapeCast_apply _ shapeCasts_S256_S256x1 (ix2 r u) (ix1 r) ?_).trans (lane_sum v _ _ r)
  rw [Shape.rowMajor_val_one, Shape.rowMajor_val_two]
  show r.val = r.val * 1 + u.val
  omega

/-! ## Each row's loss -/

/-- log of the whole row's sum minus log of the sum over the row's own batch. -/
def rowloss (t : ℕ) (v : FVec Ideal S256x8192 .f32) : FVec Ideal S256x1 .f32 :=
  subf (log (rowsum v)) (log (rowsum (sel t v)))

theorem rowloss_apply (t : ℕ) (ht : t < 32) (v : FVec Ideal S256x8192 .f32) (r : Fin 256) (u : Fin 1) :
    rowloss t v (ix2 r u)
      = Ideal.log (∑ s : Fin 8192, v (ix2 r s))
        - Ideal.log (∑ s : Fin 8192, if (256 * t + r.val) / 64 = s.val / 64 then v (ix2 r s) else 0) := by
  have h : rowloss t v (ix2 r u) = Ideal.log (rowsum v (ix2 r u)) - Ideal.log (rowsum (sel t v) (ix2 r u)) := rfl
  rw [h, rowsum_apply, rowsum_apply, Finset.sum_congr rfl fun s _ => sel_apply t ht v r s]

/-! ## The sum over the block's 256 rows -/

/-- The row losses summed into one number. -/
def total (t : ℕ) (v : FVec Ideal S256x8192 .f32) : FVec Ideal S1 .f32 :=
  multiReduction (F := Ideal) .add [1, 2] S1 (shapeCast S1x256x1 (rowloss t v) shapeCasts_S256x1_S1x256x1) 0x00000000#32
    reduces_S1x256x1_S1 (.inl rfl) rfl

/-- The indices of a 1 × 256 × 1 array are its 256 middle coordinates. -/
def midEquiv : S1x256x1.Idx ≃ Fin 256 where
  toFun i := ⟨(i 1).val, (i 1).isLt⟩
  invFun r := ix3 (0 : Fin 1) r (0 : Fin 1)
  left_inv i := by
    funext a
    match a with
    | ⟨0, _⟩ => exact Fin.ext (by have : (i 0).val < 1 := (i 0).isLt; show 0 = (i 0).val; omega)
    | ⟨1, _⟩ => rfl
    | ⟨2, _⟩ => exact Fin.ext (by have : (i 2).val < 1 := (i 2).isLt; show 0 = (i 2).val; omega)
  right_inv r := rfl

theorem total_apply (t : ℕ) (v : FVec Ideal S256x8192 .f32) (j : S1.Idx) :
    total t v j = ∑ r : Fin 256, rowloss t v (ix2 r (0 : Fin 1)) := by
  unfold total
  refine (Ideal.multiReduction_add_total _ 0x00000000#32 reduces_S1x256x1_S1 (fun b => ?_) _ _ j).trans ?_
  · match b with
    | ⟨0, _⟩ => rfl
  · refine Fintype.sum_equiv midEquiv _ _ fun i => ?_
    obtain ⟨a, r, c, rfl⟩ : ∃ (a : Fin 1) (r : Fin 256) (c : Fin 1), i = ix3 a r c := ⟨i 0, i 1, i 2, eq_ix3 i⟩
    rw [shapeCast_ab_1ab_apply]
    have hc : c = 0 := Fin.ext (by omega)
    subst hc
    rfl

/-! ## The body's stored value -/

/-- The stored value is the accumulator plus the block's total, through the body's casts. -/
theorem pay6_staged (t : ℕ) (v10 : FVec Ideal S256x8192 .f32) (xo : Vec Ideal S1x1 .f32) :
    k0_pay6 (F := Ideal) (BitVec.ofNat 32 t) v10 k0_pay3 (iota .tc S1x8192 32 [1] iota_S1x8192_d1_w32) 64#32 k0_pay4 k0_pay5 xo
      = addf (shapeCast S1x1 xo shapeCasts_S1x1_S1x1)
          (broadcast S1x1 (extractAt ![0, 0, 0] (shapeCast S1x1x1 (total t v10) shapeCasts_S1_S1x1x1) inpos_S1x1x1_p0_0_0)) :=
  rfl

theorem pay6_value (t : ℕ) (ht : t < 32) (x0 : Vec Ideal S8192x128 .bf16) (x1 : Vec Ideal S256x128 .bf16) (xo : Vec Ideal S1x1 .f32)
    (hblk : ∀ (r : Fin 256) (k : Fin 128) (h : 256 * t + r.val < 8192), x1 (ValueIdx.ix2 r k) = x0 (ValueIdx.ix2 (⟨256 * t + r.val, h⟩ : Fin 8192) k)) :
    k0_pay6 (F := Ideal) (BitVec.ofNat 32 t) (k0_pay2 x1 x0) k0_pay3 (iota .tc S1x8192 32 [1] iota_S1x8192_d1_w32) 64#32 k0_pay4 k0_pay5 xo
      = fun j => xo j + Cert.Spec.kblock (fun r k => x0 (ValueIdx.ix2 r k)) t := by
  rw [pay6_staged]
  funext j
  rw [addf_apply, shapeCast_self, broadcast_apply]
  refine congrArg (xo j + ·) ?_
  unfold extractAt shapeCast
  rw [total_apply]
  unfold Cert.Spec.kblock
  refine Finset.sum_congr rfl fun r _ => ?_
  have hr : 256 * t + r.val < 8192 := by have := r.isLt; omega
  have hE : ∀ s : Fin 8192, k0_pay2 (F := Ideal) x1 x0 (ix2 r s)
      = Cert.Spec.kexp (fun r k => x0 (ValueIdx.ix2 r k)) ⟨256 * t + r.val, hr⟩ s := by
    intro s
    rw [pay2_apply]
    unfold Cert.Spec.kexp Cert.Spec.kdot
    refine congrArg (fun z => Ideal.exp (z * Cert.Spec.cK)) (Finset.sum_congr rfl fun k _ => ?_)
    rw [hblk r k hr]
  rw [dif_pos hr, rowloss_apply t ht]
  unfold Cert.Spec.krow
  simp only [hE]

end Cert.KernelIdeal.Pay

end
-- ==== Proof.KI.Blocks.lean ====
import proofs.«154974_j12833362280503_1_alg».proof.Proof.KI.FrameRuns
import Idealize.ShloMosaic.Lib.ValueIdx
import Idealize.ShloMosaic.Lib.Pipeline.Value

noncomputable section

namespace Cert.KernelIdeal.Blk

open Cert.KernelIdeal Cert.KernelIdeal.Gen Cert.KernelIdeal.Hand Idealize.ShloMosaic Idealize.ShloMosaic.TcCoe Idealize.ShloMosaic.ValueIdx

variable {F : FTy → Type} [FloatOps F] [Named F]

variable (m : (ℓ : Loc nD τ sig) → Buf (Elt F) ℓ)

/-- Where each window's block sits at grid point t: window 0 always at block (0, 0), window 1 at block (t, 0). -/
theorem index_facts : ∀ t : Fin cfg0.N,
    win0_0.index t (0 : Fin 2) = 0 ∧ win0_0.index t (1 : Fin 2) = 0 ∧ win0_1.index t (0 : Fin 2) = t.val ∧ win0_1.index t (1 : Fin 2) = 0 :=
  (by decide +kernel : ∀ t : Fin grid0.N,
    win0_0.index t (0 : Fin 2) = 0 ∧ win0_0.index t (1 : Fin 2) = 0 ∧ win0_1.index t (0 : Fin 2) = t.val ∧ win0_1.index t (1 : Fin 2) = 0)

/-- Window 0's block at any point is the whole 8192 × 128 array: its entry (r, k) is the array's entry (r, k). -/
theorem iblk0_apply (c : Dev nD) (t : Fin cfg0.N) (r : Fin 8192) (k : Fin 128) :
    (iblk m c 0 t : Vec F S8192x128 .bf16) (ix2 r k) = (V m c main_v7 : Vec F S8192x128 .bf16) (ix2 r k) := by
  obtain ⟨e0, e1, -, -⟩ := index_facts t
  show V m c main_v7 (((cfg0.win 0).blk t).view.emb (ix2 r k)) = V m c main_v7 (ix2 r k)
  refine congrArg (V m c main_v7) (funext fun a => Fin.ext ?_)
  match a with
  | ⟨0, _⟩ => show win0_0.index t (0 : Fin 2) * 8192 + 1 * r.val = r.val; omega
  | ⟨1, _⟩ => show win0_0.index t (1 : Fin 2) * 128 + 1 * k.val = k.val; omega

/-- Window 1's block at point t is rows 256 t … 256 t + 255 of the array: its entry (r, k) is the array's entry
    (256 t + r, k). -/
theorem iblk1_apply (c : Dev nD) (t : Fin cfg0.N) (r : Fin 256) (k : Fin 128) (h : 256 * t.val + r.val < 8192) :
    (iblk m c 1 t : Vec F S256x128 .bf16) (ix2 r k)
      = (V m c main_v7 : Vec F S8192x128 .bf16) (ix2 (⟨256 * t.val + r.val, h⟩ : Fin 8192) k) := by
  obtain ⟨-, -, e0, e1⟩ := index_facts t
  show V m c main_v7 (((cfg0.win 1).blk t).view.emb (ix2 r k)) = V m c main_v7 (ix2 (⟨256 * t.val + r.val, h⟩ : Fin 8192) k)
  refine congrArg (V m c main_v7) (funext fun a => Fin.ext ?_)
  match a with
  | ⟨0, _⟩ => show win0_1.index t (0 : Fin 2) * 256 + 1 * r.val = 256 * t.val + r.val; omega
  | ⟨1, _⟩ => show win0_1.index t (1 : Fin 2) * 128 + 1 * k.val = k.val; omega

end Cert.KernelIdeal.Blk

end
-- ==== Proof.AlgebraIdx.lean ====
/-
  Index bookkeeping for the 8192 flattened rows: row 64 i + j of 8192 is (batch i, epoch j), and a sum over all
  8192 rows is the double sum over batches and epochs; likewise 8192 = 32 · 256 for the blocks of 256 rows.
-/
import Mathlib.Algebra.BigOperators.Fin
import Mathlib.Data.Fintype.BigOperators
import Mathlib.Logic.Equiv.Fin.Basic

open scoped BigOperators

namespace Cert.AlgebraIdx

/-- Row 64 i + j of the flattened array. -/
def row (i : Fin 128) (j : Fin 64) : Fin 8192 :=
  ⟨64 * i.val + j.val, by have := i.isLt; have := j.isLt; omega⟩

theorem row_val (i : Fin 128) (j : Fin 64) : (row i j).val = 64 * i.val + j.val := rfl

theorem row_div (i : Fin 128) (j : Fin 64) : (row i j).val / 64 = i.val := by
  have := j.isLt; rw [row_val]; omega

theorem row_mod (i : Fin 128) (j : Fin 64) : (row i j).val % 64 = j.val := by
  have := j.isLt; rw [row_val]; omega

/-- A sum over the product index, through the standard bijection Fin a × Fin b ≃ Fin (a b). -/
theorem sum_fin_mul {M : Type*} [AddCommMonoid M] (a b : ℕ) (h : Fin (a * b) → M) :
    ∑ r : Fin (a * b), h r = ∑ i : Fin a, ∑ j : Fin b, h (finProdFinEquiv (i, j)) := by
  rw [← Equiv.sum_comp finProdFinEquiv h, Fintype.sum_prod_type]

/-- A sum over all 8192 rows is the sum over batches of the sum over epochs. -/
theorem sum_rows {M : Type*} [AddCommMonoid M] (h : Fin 8192 → M) :
    ∑ r : Fin 8192, h r = ∑ i : Fin 128, ∑ j : Fin 64, h (row i j) := by
  have e := sum_fin_mul 128 64 h
  rw [e]
  refine Finset.sum_congr rfl fun i _ => Finset.sum_congr rfl fun j _ => ?_
  congr 1
  apply Fin.ext
  simp only [finProdFinEquiv_apply_val, row_val]
  omega

/-- A sum over all 8192 rows is the sum over the 32 blocks of the sum over the 256 rows of the block. -/
theorem sum_blocks {M : Type*} [AddCommMonoid M] (h : Fin 8192 → M) :
    ∑ r : Fin 8192, h r
      = ∑ t : Fin 32, ∑ r : Fin 256,
          h ⟨256 * t.val + r.val, by have := t.isLt; have := r.isLt; omega⟩ := by
  have e := sum_fin_mul 32 256 h
  rw [e]
  refine Finset.sum_congr rfl fun t _ => Finset.sum_congr rfl fun r _ => ?_
  congr 1
  apply Fin.ext
  simp only [finProdFinEquiv_apply_val]
  omega

end Cert.AlgebraIdx
-- ==== Proof.Algebra.lean ====
/-
  The kernel's loss and the reference's loss agree on every input array whose entries are real numbers and whose
  rows are nonzero.

  Under those hypotheses every normalized entry is a real number, so all the algebra is done over the reals:
  the exponentiated similarity of rows (i, j) and (m, n) is the same positive real e on both sides (the inner product
  is symmetric, and dividing by the temperature 13421773 / 2^27 is multiplying by 2^27 / 13421773); with
  P = ∑ n e (i, j) (i, n) the positives and T = ∑ m n e (i, j) (m, n) the total, both positive, the kernel's row loss
  is log T − log P and the reference's is −log (P / (P + (T − P))) = −log (P / T) = log T − log P. Summing over the
  8192 rows r = 64 i + j is summing over (i, j).
-/
import proofs.«154974_j12833362280503_1_alg».proof.Proof.Spec
import proofs.«154974_j12833362280503_1_alg».proof.Proof.AlgebraIdx
import Idealize.ShloMosaic.PureOps.Ideal
import Idealize.ShloMosaic.PureOps.Ideal.Laws
import Mathlib.Analysis.SpecialFunctions.Log.Basic
import Mathlib.Analysis.Real.Sqrt
import Mathlib.Data.EReal.Basic
import Mathlib.Data.EReal.Operations
import Mathlib.Data.EReal.Inv

noncomputable section

open scoped BigOperators

namespace Cert.Algebra

open Idealize.ShloMosaic Cert.Spec Cert.AlgebraIdx

/-! ## The blocks of 256 rows exhaust the 8192 rows -/

theorem sum_kblock (g : Fin 8192 → Fin 128 → EReal) :
    ∑ t ∈ Finset.range 32, Cert.Spec.kblock g t = ∑ r : Fin 8192, Cert.Spec.krow g r := by
  rw [← Fin.sum_univ_eq_sum_range (fun t => kblock g t) 32, sum_blocks (fun r => krow g r)]
  refine Finset.sum_congr rfl fun t _ => ?_
  unfold kblock
  refine Finset.sum_congr rfl fun r _ => ?_
  have h : 256 * t.val + r.val < 8192 := by have := t.isLt; have := r.isLt; omega
  rw [dif_pos h]

/-! ## Real numbers inside the extended reals -/

/-- The inclusion of the reals commutes with finite sums. -/
theorem coe_sum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The temperature word denotes 13421773 / 2^27. -/
theorem dR_eq : dR = ((13421773 / 134217728 : ℝ) : EReal) := by
  simp [dR, Ideal.ofBits, Ideal.ieee, -EReal.coe_mul]; norm_num

/-- A real array seen in the extended reals. -/
def cast3 (fr : Fin 128 → Fin 64 → Fin 128 → ℝ) : Fin 128 → Fin 64 → Fin 128 → EReal :=
  fun i j k => (fr i j k : EReal)

/-- The exponentiated similarity of rows (i, j) and (m, n), as a real number. -/
def eR (fr : Fin 128 → Fin 64 → Fin 128 → ℝ) (i : Fin 128) (j : Fin 64) (m : Fin 128) (n : Fin 64) : ℝ :=
  Real.exp ((∑ k : Fin 128, fr i j k * fr m n k) * (134217728 / 13421773))

/-- The positives of row (i, j): the sum over its own batch. -/
def pR (fr : Fin 128 → Fin 64 → Fin 128 → ℝ) (i : Fin 128) (j : Fin 64) : ℝ := ∑ n : Fin 64, eR fr i j i n

/-- The total of row (i, j): the sum over all rows. -/
def tR (fr : Fin 128 → Fin 64 → Fin 128 → ℝ) (i : Fin 128) (j : Fin 64) : ℝ :=
  ∑ m : Fin 128, ∑ n : Fin 64, eR fr i j m n

theorem eR_pos (fr : Fin 128 → Fin 64 → Fin 128 → ℝ) (i : Fin 128) (j : Fin 64) (m : Fin 128) (n : Fin 64) :
    0 < eR fr i j m n := Real.exp_pos _

theorem pR_pos (fr : Fin 128 → Fin 64 → Fin 128 → ℝ) (i : Fin 128) (j : Fin 64) : 0 < pR fr i j :=
  Finset.sum_pos (fun n _ => eR_pos fr i j i n) ⟨0, Finset.mem_univ _⟩

theorem tR_pos (fr : Fin 128 → Fin 64 → Fin 128 → ℝ) (i : Fin 128) (j : Fin 64) : 0 < tR fr i j :=
  Finset.sum_pos (fun m _ => Finset.sum_pos (fun n _ => eR_pos fr i j m n) ⟨0, Finset.mem_univ _⟩)
    ⟨0, Finset.mem_univ _⟩

/-! ## The kernel's side -/

theorem flat_row (f : Fin 128 → Fin 64 → Fin 128 → EReal) (i : Fin 128) (j : Fin 64) (k : Fin 128) :
    flat f (row i j) k = f i j k := by
  simp only [flat, row_div, row_mod, Fin.eta]

theorem kexp_flat (fr : Fin 128 → Fin 64 → Fin 128 → ℝ) (i : Fin 128) (j : Fin 64) (m : Fin 128) (n : Fin 64) :
    kexp (flat (cast3 fr)) (row i j) (row m n) = (eR fr i j m n : EReal) := by
  unfold kexp kdot eR cK
  simp only [flat_row, cast3, ← EReal.coe_mul, ← coe_sum, Ideal.exp_coe]

theorem ksum_all (fr : Fin 128 → Fin 64 → Fin 128 → ℝ) (i : Fin 128) (j : Fin 64) :
    ∑ s : Fin 8192, kexp (flat (cast3 fr)) (row i j) s = (tR fr i j : EReal) := by
  rw [sum_rows]
  unfold tR
  rw [coe_sum]
  refine Finset.sum_congr rfl fun m _ => ?_
  rw [coe_sum]
  exact Finset.sum_congr rfl fun n _ => kexp_flat fr i j m n

theorem ksum_own (fr : Fin 128 → Fin 64 → Fin 128 → ℝ) (i : Fin 128) (j : Fin 64) :
    (∑ s : Fin 8192, if (row i j).val / 64 = s.val / 64 then kexp (flat (cast3 fr)) (row i j) s else 0)
      = (pR fr i j : EReal) := by
  rw [sum_rows, Finset.sum_eq_single i]
  · unfold pR
    rw [coe_sum]
    refine Finset.sum_congr rfl fun n _ => ?_
    rw [if_pos (by rw [row_div, row_div]), kexp_flat]
  · intro m _ hm
    refine Finset.sum_eq_zero fun n _ => ?_
    rw [if_neg]
    rw [row_div, row_div]
    exact fun h => hm (Fin.ext h.symm)
  · intro h
    exact absurd (Finset.mem_univ i) h

theorem krow_row (fr : Fin 128 → Fin 64 → Fin 128 → ℝ) (i : Fin 128) (j : Fin 64) :
    krow (flat (cast3 fr)) (row i j) = Ideal.log (tR fr i j : EReal) - Ideal.log (pR fr i j : EReal) := by
  unfold krow
  rw [ksum_all, ksum_own]

/-! ## The reference's side -/

theorem rexp_cast (fr : Fin 128 → Fin 64 → Fin 128 → ℝ) (i : Fin 128) (j : Fin 64) (n : Fin 64) (m : Fin 128) :
    rexp (cast3 fr) i j n m = (eR fr i j m n : EReal) := by
  unfold rexp rdot eR
  rw [dR_eq, Ideal.div_coe (by norm_num)]
  simp only [cast3, ← EReal.coe_mul, ← coe_sum, Ideal.exp_coe]
  have h1 : ∑ k : Fin 128, fr m n k * fr i j k = ∑ k : Fin 128, fr i j k * fr m n k :=
    Finset.sum_congr rfl fun k _ => mul_comm _ _
  have h2 : (1 / (13421773 / 134217728) : ℝ) = 134217728 / 13421773 := by norm_num
  rw [h1, h2]

theorem rpos_cast (fr : Fin 128 → Fin 64 → Fin 128 → ℝ) (i : Fin 128) (j : Fin 64) :
    rpos (cast3 fr) i j = (pR fr i j : EReal) := by
  unfold rpos pR
  rw [coe_sum]
  exact Finset.sum_congr rfl fun n _ => rexp_cast fr i j n i

theorem rtot_cast (fr : Fin 128 → Fin 64 → Fin 128 → ℝ) (i : Fin 128) (j : Fin 64) :
    rtot (cast3 fr) i j = (tR fr i j : EReal) := by
  unfold rtot tR
  rw [Finset.sum_comm, coe_sum]
  refine Finset.sum_congr rfl fun m _ => ?_
  rw [coe_sum]
  exact Finset.sum_congr rfl fun n _ => rexp_cast fr i j n m

/-! ## One row: log T − log P = −log (P / (P + (T − P))) for positive reals -/

theorem row_eq (P T : ℝ) (hP : 0 < P) (hT : 0 < T) :
    Ideal.log (T : EReal) - Ideal.log (P : EReal)
      = -(Ideal.log (Ideal.div (P : EReal) ((P : EReal) + ((T : EReal) - (P : EReal))))) := by
  have hs : (P : EReal) + ((T : EReal) - (P : EReal)) = (T : EReal) := by
    rw [← EReal.coe_sub, ← EReal.coe_add]
    congr 1
    ring
  have hq : 0 < P * (1 / T) := by positivity
  rw [hs, Ideal.div_coe hT.ne', ← EReal.coe_mul, Ideal.log_coe, Ideal.log_coe, Ideal.log_coe,
    if_neg (not_le.2 hT), if_neg (not_le.2 hP), if_neg (not_le.2 hq), ← EReal.coe_sub, ← EReal.coe_neg]
  congr 1
  rw [Real.log_mul hP.ne' (one_div_pos.2 hT).ne', one_div, Real.log_inv]
  ring

/-! ## The two losses on a real array -/

theorem loss_eq_cast (fr : Fin 128 → Fin 64 → Fin 128 → ℝ) :
    lossK (flat (cast3 fr)) = lossR (cast3 fr) := by
  have key : ∑ r : Fin 8192, krow (flat (cast3 fr)) r = ∑ i : Fin 128, ∑ j : Fin 64, rrow (cast3 fr) i j := by
    rw [sum_rows]
    refine Finset.sum_congr rfl fun i _ => Finset.sum_congr rfl fun j _ => ?_
    rw [krow_row]
    unfold rrow
    rw [rpos_cast, rtot_cast]
    exact row_eq _ _ (pR_pos fr i j) (tR_pos fr i j)
  unfold lossK lossR
  rw [key]

/-! ## The normalized input is a real array -/

theorem nrm_real (x : Fin 128 → Fin 64 → Fin 128 → EReal) (hfin : ∀ i j k, ∃ v : ℝ, x i j k = (v : EReal))
    (hpos : ∀ i j, (0 : EReal) < ∑ k : Fin 128, x i j k * x i j k) :
    ∃ fr : Fin 128 → Fin 64 → Fin 128 → ℝ, nrm x = cast3 fr := by
  choose xr hx using hfin
  refine ⟨fun i j k => xr i j k * (1 / Real.sqrt (∑ k' : Fin 128, xr i j k' * xr i j k')), ?_⟩
  funext i j k
  have hS : (∑ k' : Fin 128, x i j k' * x i j k')
      = ((∑ k' : Fin 128, xr i j k' * xr i j k' : ℝ) : EReal) := by
    rw [coe_sum]
    refine Finset.sum_congr rfl fun k' _ => ?_
    rw [hx, EReal.coe_mul]
  have hp : (0 : ℝ) < ∑ k' : Fin 128, xr i j k' * xr i j k' := by
    have h := hpos i j
    rw [hS] at h
    exact EReal.coe_pos.1 h
  unfold nrm cast3
  rw [hS, Ideal.sqrt_coe, if_neg (not_lt.2 hp.le), Ideal.div_coe (Real.sqrt_pos.2 hp).ne', hx, ← EReal.coe_mul]

theorem lossK_eq_lossR (x : Fin 128 → Fin 64 → Fin 128 → EReal) (hfin : ∀ i j k, ∃ v : ℝ, x i j k = (v : EReal))
    (hpos : ∀ i j, (0 : EReal) < ∑ k : Fin 128, x i j k * x i j k) :
    Cert.Spec.lossK (Cert.Spec.flat (Cert.Spec.nrm x)) = Cert.Spec.lossR (Cert.Spec.nrm x) := by
  obtain ⟨fr, hf⟩ := nrm_real x hfin hpos
  rw [hf]
  exact loss_eq_cast fr

end Cert.Algebra

end
-- ==== Proof.KI.AccValue.lean ====
/-
  What the kernel's one-entry accumulator holds after each grid point: at point 0 it is cleared and the sum of the row
  losses of block 0 is added; at every later point t the sum of the row losses of block t (rows 256 t … 256 t + 255
  of the 8192 normalized rows) is added to what the point before left. So after point n it holds the sum over
  t ≤ n of the block sums, and after the last point, 31, the sum of all 8192 row losses.
-/
import proofs.«154974_j12833362280503_1_alg».proof.Proof.KI.FrameData
import proofs.«154974_j12833362280503_1_alg».proof.Proof.KI.Payload
import proofs.«154974_j12833362280503_1_alg».proof.Proof.KI.Blocks
import proofs.«154974_j12833362280503_1_alg».proof.Proof.Spec
import proofs.«154974_j12833362280503_1_alg».proof.Proof.Algebra
import Idealize.ShloMosaic.Lib.ValueIdx
import Idealize.ShloMosaic.Lib.Pipeline.Value
import Idealize.ShloMosaic.PureOps.Ideal.Laws

noncomputable section

open scoped BigOperators

namespace Cert.KernelIdeal.Acc

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ)

/-- The 8192 × 128 array of normalized rows as the region finds it, read at (row, coordinate). -/
abbrev garr (c : Dev nD) : Fin 8192 → Fin 128 → EReal :=
  fun r k => (V (F := Ideal) m c main_v7 : S8192x128.Idx → EReal) (ix2 r k)

/-- The whole-array input's block at point t. -/
abbrev xblk0 (c : Dev nD) (t : Fin cfg0.N) : Vec Ideal S8192x128 .bf16 := iblk m c 0 t
/-- The row-block input's block at point t. -/
abbrev xblk1 (c : Dev nD) (t : Fin cfg0.N) : Vec Ideal S256x128 .bf16 := iblk m c 1 t

/-- The grid's one coordinate at point t is t. -/
theorem hcoord : ∀ t : Fin cfg0.N, ((grid0.coords t) 0).val = t.val :=
  (by decide +kernel : ∀ t : Fin grid0.N, ((grid0.coords t) 0).val = t.val)

/-- The row block at point t holds rows 256 t … 256 t + 255 of the whole array's block. -/
theorem hblk (c : Dev nD) (t : Fin cfg0.N) (r : Fin 256) (k : Fin 128) (h : 256 * t.val + r.val < 8192) :
    xblk1 m c t (ix2 r k) = xblk0 m c t (ix2 (⟨256 * t.val + r.val, h⟩ : Fin 8192) k) :=
  (Blk.iblk1_apply m c t r k h).trans (Blk.iblk0_apply m c t ⟨256 * t.val + r.val, h⟩ k).symm

/-- The block sum over the whole array's block is the block sum over the array. -/
theorem kblock_blk0 (c : Dev nD) (t : Fin cfg0.N) (s : ℕ) :
    Cert.Spec.kblock (fun r k => xblk0 m c t (ix2 r k)) s = Cert.Spec.kblock (garr m c) s :=
  congrArg (fun g => Cert.Spec.kblock g s) (funext fun r => funext fun k => Blk.iblk0_apply m c t r k)

/-- The first point leaves zero plus its block's sum. -/
theorem step_A (c : Dev nD) (t : Fin cfg0.N) (h0 : t.val % 32 = 0) :
    outsAt0 m c t.val t.isLt = fun _ => (0 : EReal) + Cert.Spec.kblock (garr m c) t.val := by
  have hN : t.val < 32 := lt_of_lt_of_eq t.isLt N_0
  refine (outsAt0_A m c t h0).trans ?_
  refine (out0_A_2_eq (F := Ideal) c (grid0.coords t) (ms0_0 t) (hs0_0 t) (ms0_1 t) (hs0_1 t) (ms0_2 t) (hs0_2 t)
    ((hcond0_0 t).mpr h0) (xblk0 m c t) (xblk1 m c t)).trans ?_
  rw [hcoord t]
  refine (Pay.pay6_value t.val hN (xblk0 m c t) (xblk1 m c t) (k0_pay1 (F := Ideal)) (hblk m c t)).trans ?_
  rw [Pay.pay1_value, kblock_blk0]

/-- A later point leaves what the point before left plus its block's sum. -/
theorem step_B (c : Dev nD) (t : Fin cfg0.N) (h0 : ¬t.val % 32 = 0) :
    outsAt0 m c t.val t.isLt
      = fun j => outsAt0 m c (t.val - 1) (Nat.lt_of_le_of_lt (Nat.sub_le _ _) t.isLt) j + Cert.Spec.kblock (garr m c) t.val := by
  have hN : t.val < 32 := lt_of_lt_of_eq t.isLt N_0
  refine (outsAt0_B m c t h0).trans ?_
  refine (out0_B_2_eq (F := Ideal) c (grid0.coords t) (ms0_0 t) (hs0_0 t) (ms0_1 t) (hs0_1 t) (ms0_2 t) (hs0_2 t)
    (fun h => h0 ((hcond0_0 t).mp h)) (xblk0 m c t) (xblk1 m c t)
    (outsAt0 m c (t.val - 1) (Nat.lt_of_le_of_lt (Nat.sub_le _ _) t.isLt))).trans ?_
  rw [hcoord t]
  refine (Pay.pay6_value t.val hN (xblk0 m c t) (xblk1 m c t)
    (outsAt0 m c (t.val - 1) (Nat.lt_of_le_of_lt (Nat.sub_le _ _) t.isLt)) (hblk m c t)).trans ?_
  rw [kblock_blk0]

/-- After point n the accumulator holds the sum of the block sums of points 0 … n. -/
theorem outsAt0_value (c : Dev nD) (n : ℕ) (hn : n < cfg0.N) :
    outsAt0 (F := Ideal) m c n hn = fun _ => ∑ t ∈ Finset.range (n + 1), Cert.Spec.kblock (garr m c) t := by
  induction n with
  | zero =>
    refine (step_A m c ⟨0, hn⟩ rfl).trans ?_
    funext _
    rw [zero_add, Finset.sum_range_one]
  | succ n ih =>
    have hN : cfg0.N = 32 := N_0
    have hB : ¬(⟨n + 1, hn⟩ : Fin cfg0.N).val % 32 = 0 := by dsimp only; omega
    refine (step_B m c ⟨n + 1, hn⟩ hB).trans ?_
    funext j
    show outsAt0 m c n _ j + Cert.Spec.kblock (garr m c) (n + 1) = _
    rw [ih (Nat.lt_of_succ_lt hn), Finset.sum_range_succ _ (n + 1)]

/-- After the last point the accumulator holds the sum of all 8192 row losses. -/
theorem acc_final (c : Dev nD) :
    outsAt0 (F := Ideal) m c 31 (by decide) = fun _ => ∑ r : Fin 8192, Cert.Spec.krow (garr m c) r := by
  rw [outsAt0_value m c 31 (by decide), Cert.Algebra.sum_kblock]

end Cert.KernelIdeal.Acc

end
-- ==== Proof.KI.HostValue.lean ====
/-
  What the kernel program's host lines before the region leave in the array the region reads, at the ideal values.

  The input is a 128 × 64 × 128 array x. The nine lines flatten it to 8192 × 128 (row r = 64 i + j), square every
  entry, sum each row's squares from zero, take the square root, spread it back over the row's 128 columns, divide
  the flattened array by it, and change the format to 16 bits, which at the ideal values changes nothing. So the
  last array holds, at (r, k),

      x (r / 64, r % 64, k) / sqrt (∑ k', x (r / 64, r % 64, k')²),

  which is the flattened normalised input of the specification. The input array itself is written by none of the
  nine lines and is as it was.
-/
import proofs.«154974_j12833362280503_1_alg».proof.Proof.Gen.KernelIdeal.Launch
import proofs.«154974_j12833362280503_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HostVal

open Idealize.ShloMosaic Idealize.ShloMosaic.TcCoe Idealize.ShloMosaic.ValueIdx Idealize.SL.Sem
open Idealize.ShloMosaic.StableHlo
open Cert.KernelIdeal Cert.KernelIdeal.Gen

/-! ## The layout steps, each read at one index -/

/-- The rows flattened: the 8192 × 128 array at (r, k) is the input at (r / 64, r % 64, k), both sitting at the
    row-major position ((r / 64) · 64 + r % 64) · 128 + k = r · 128 + k. -/
theorem reshape_at (x : S128x64x128.Idx → EReal) (r : Fin 8192) (k : Fin 128) :
    shapeCast S8192x128 x shapeCasts_S128x64x128_S8192x128 (ix2 r k)
      = x (ix3 (⟨r.val / 64, by have := r.isLt; omega⟩ : Fin 128) (⟨r.val % 64, by omega⟩ : Fin 64) k) := by
  refine shapeCast_apply x _ _ _ ?_
  rw [Shape.rowMajor_val_three, Shape.rowMajor_val_two]
  show ((r.val / 64) * 64 + r.val % 64) * 128 + k.val = r.val * 128 + k.val
  omega

/-- The sum over the columns, from the initial value zero: row r's entry is the sum of row r. -/
theorem rowsum_at (y : S8192x128.Idx → EReal) (r : Fin 8192) :
    (Host.reduceAdd (F := Ideal) (φ := .f32) y (constant S_ .f32 0x00000000#32) reducesTo_S8192x128_S8192_d1 h_S_ : S8192.Idx → EReal) (ix1 r)
      = ∑ k' : Fin 128, y (ix2 r k') := by
  simp only [Host.reduceAdd, Ideal.hostReduceAdd_def]
  rw [Ideal.hostReduceAdd_single reducesTo_S8192x128_S8192_d1 (by decide)]
  rw [show (constant (F := Ideal) S_ FTy.f32 0x00000000#32 (Shape.Idx.first h_S_) : EReal) = 0 from Ideal.ofBits_zero_f32, zero_add]
  refine Finset.sum_congr rfl fun k' _ => congrArg y (funext fun a => Fin.ext ?_)
  match a with
  | ⟨0, _⟩ => rfl
  | ⟨1, _⟩ => rfl

/-- The divisor: the row sums of squares, made a column, square-rooted, and spread back over the columns, read at
    (r, k): the square root of row r's sum of squares, whatever the column. -/
theorem den_at (y : S8192x128.Idx → EReal) (r : Fin 8192) (k : Fin 128) :
    (broadcastInDim S8192x128 ![0, 1] bcast_S8192x1_S8192x128_0_1
        (Host.sqrt (F := Ideal) (φ := .f32) (broadcastInDim S8192x1 ![0] bcast_S8192_S8192x1_0
          (Host.reduceAdd (F := Ideal) (φ := .f32) (mulf y y) (constant S_ .f32 0x00000000#32) reducesTo_S8192x128_S8192_d1 h_S_)))
      : S8192x128.Idx → EReal) (ix2 r k)
      = Ideal.sqrt (∑ k' : Fin 128, y (ix2 r k') * y (ix2 r k')) := by
  refine (broadcastInDim_apply _ bcast_S8192x1_S8192x128_0_1 _ (ix2 r k) (ix2 r (0 : Fin 1)) (fun a => match a with
    | ⟨0, _⟩ => by show r.val = if (8192 : Nat) = 1 then 0 else r.val; rw [if_neg (by decide)]
    | ⟨1, _⟩ => by show (0 : Nat) = if (1 : Nat) = 1 then 0 else k.val; rw [if_pos rfl])).trans ?_
  show Ideal.sqrt _ = Ideal.sqrt _
  refine congrArg Ideal.sqrt ?_
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  exact rowsum_at _ r

/-! ## The nine operations composed -/

/-- What the nine operations leave in the last array, as a function of the input array. -/
def hostTerm (x : S128x64x128.Idx → EReal) : S8192x128.Idx → EReal :=
  truncf (F := Ideal) (φ := .f32) .bf16
    (Host.divf (F := Ideal) (φ := .f32) (shapeCast S8192x128 x shapeCasts_S128x64x128_S8192x128)
      (broadcastInDim S8192x128 ![0, 1] bcast_S8192x1_S8192x128_0_1
        (Host.sqrt (F := Ideal) (φ := .f32) (broadcastInDim S8192x1 ![0] bcast_S8192_S8192x1_0
          (Host.reduceAdd (F := Ideal) (φ := .f32)
            (mulf (shapeCast S8192x128 x shapeCasts_S128x64x128_S8192x128) (shapeCast S8192x128 x shapeCasts_S128x64x128_S8192x128))
            (constant S_ .f32 0x00000000#32) reducesTo_S8192x128_S8192_d1 h_S_)))))
    bitsLt_bf16_f32

/-- Read at (r, k): the input's row (r / 64, r % 64) divided by its Euclidean norm, at column k. -/
theorem hostTerm_apply (x : S128x64x128.Idx → EReal) (r : Fin 8192) (k : Fin 128) :
    hostTerm x (ix2 r k) = Cert.Spec.flat (Cert.Spec.nrm (Cert.Spec.X3 x)) r k := by
  unfold hostTerm
  generalize hy : (shapeCast S8192x128 x shapeCasts_S128x64x128_S8192x128 : S8192x128.Idx → EReal) = y
  have hyv : ∀ k' : Fin 128, y (ix2 r k') = x (ix3 (⟨r.val / 64, by have := r.isLt; omega⟩ : Fin 128) (⟨r.val % 64, by omega⟩ : Fin 64) k') :=
    fun k' => by rw [← hy]; exact reshape_at x r k'
  show Ideal.div (y (ix2 r k)) _ = _
  rw [den_at y r k]
  simp only [hyv]
  rfl

/-- The last of the nine arrays at (r, k) is the flattened normalised input there. -/
theorem v7_value (m : (ℓ : Loc nD τ sig) → Buf (Elt Ideal) ℓ) (c : Dev nD) (r : Fin 8192) (k : Fin 128) :
    (StableHlo.after (List.flatten [hostOps0 (F := Ideal)]) (fun b => m (c, b)) (Proc.devRef .tc main_v7) : S8192x128.Idx → EReal) (ValueIdx.ix2 r k)
      = Cert.Spec.flat (Cert.Spec.nrm (Cert.Spec.X3 (m ((c : Thread nD τ).loc main_arg0)))) r k := by
  simp only [List.flatten_cons, List.flatten_nil, List.append_nil]
  have e : (StableHlo.after (hostOps0 (F := Ideal)) (fun b => m (c, b)) (Proc.devRef .tc main_v7) : S8192x128.Idx → EReal)
      = hostTerm (m ((c : Thread nD τ).loc main_arg0)) := by
    dsimp only [hostOps0]
    after_results
    rfl
  rw [e]
  exact hostTerm_apply _ r k

/-- None of the nine lines writes the input array: it holds what it held. -/
theorem arg0_kept {F : FTy → Type} [FloatOps F] [Named F] (m : (ℓ : Loc nD τ sig) → Buf (Elt F) ℓ) (c : Dev nD) :
    StableHlo.after (List.flatten [hostOps0 (F := F)]) (fun b => m (c, b)) (Proc.devRef .tc main_arg0) = m ((c : Thread nD τ).loc main_arg0) := by
  simp only [List.flatten_cons, List.flatten_nil, List.append_nil]
  dsimp only [hostOps0]
  after_results

end Cert.KernelIdeal.HostVal

end
-- ==== Proof.KI.Final.lean ====
/-
  The kernel program's result as a function of its input.

  The output array has a single entry, and only the last of the 32 grid points writes it back, so after the run it
  holds what the accumulator holds after point 31: the sum of the 8192 row losses of the array of normalised rows the
  region reads. The three host lines after the region flatten that one entry to a scalar and divide it by the word of
  8192. The array the region reads is the flattened normalised input, so the result is the specification's lossK of it.
-/
import proofs.«154974_j12833362280503_1_alg».proof.Proof.KI.Launch
import proofs.«154974_j12833362280503_1_alg».proof.Proof.KI.FrameData
import proofs.«154974_j12833362280503_1_alg».proof.Proof.KI.AccValue
import proofs.«154974_j12833362280503_1_alg».proof.Proof.KI.HostValue
import proofs.«154974_j12833362280503_1_alg».proof.Proof.Spec
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.KernelIdeal.Fin

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen

variable (m : (ℓ : Loc nD τ sig) → Buf (Elt Ideal) ℓ)

/-! The output array has one entry, so all its indices are one index. -/

instance subsingleton_idx : Subsingleton S1x1.Idx :=
  ⟨fun a b => funext fun d => Fin.ext (by
    match d with
    | ⟨0, _⟩ => exact (Nat.lt_one_iff.1 (a 0).isLt).trans (Nat.lt_one_iff.1 (b 0).isLt).symm
    | ⟨1, _⟩ => exact (Nat.lt_one_iff.1 (a 1).isLt).trans (Nat.lt_one_iff.1 (b 1).isLt).symm)⟩

/-- The output window's block index is (0, 0) at every point. -/
theorem out_index : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- An index of the output array lies in a point's block iff each coordinate is in the block's range. -/
theorem mem_out_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v8).slice (win0_2.rect t)).set ↔ _
  rw [View.set_slice_whole, Rect.mem_set_unit]
  exact Iff.rfl

/-- The output array after the run: what the accumulator holds after the last point, the only one written back. -/
theorem final_arr (c : Dev nD) :
    (Hand.dats (F := Ideal) m 0 c).arrAt 2 cfg0.N = Hand.outsAt0 (F := Ideal) m c 31 (by decide) := by
  refine (Hand.dats (F := Ideal) m 0 c).arrAt_eq_of_cover 2 _ (fun t hf => ?_) (fun i => ?_)
  · have ht : t.val % 32 = 31 := (flush0_2 t).mp hf
    have hN : t.val < 32 := lt_of_lt_of_eq t.isLt N_0
    obtain rfl : t = ⟨31, by decide⟩ := Fin.ext (by show t.val = 31; omega)
    funext j
    rw [View.read_apply]
    show (Hand.dats (F := Ideal) m 0 c).after 2 _ _ = _
    rw [Hand.after0_2]
    exact congrArg _ (subsingleton_idx.elim _ _)
  · refine ⟨⟨31, by decide⟩, (flush0_2 _).mpr rfl, ?_⟩
    rw [mem_out_blk]
    obtain ⟨e0, e1⟩ := out_index ⟨31, by decide⟩
    intro a
    match a with
    | ⟨0, _⟩ =>
      show win0_2.index ⟨31, _⟩ (0 : Fin 2) * 1 ≤ (i 0).val ∧ (i 0).val < win0_2.index ⟨31, _⟩ (0 : Fin 2) * 1 + 1
      have := Nat.lt_one_iff.1 (i 0).isLt
      omega
    | ⟨1, _⟩ =>
      show win0_2.index ⟨31, _⟩ (1 : Fin 2) * 1 ≤ (i 1).val ∧ (i 1).val < win0_2.index ⟨31, _⟩ (1 : Fin 2) * 1 + 1
      have := Nat.lt_one_iff.1 (i 1).isLt
      omega

/-- The one-entry array flattened to a scalar reads its one entry. -/
theorem flatten_at (X : S1x1.Idx → EReal) (y : S_.Idx) :
    shapeCast S_ X shapeCasts_S1x1_S_ y = X (ix2 (0 : Fin 1) (0 : Fin 1)) :=
  shapeCast_apply X shapeCasts_S1x1_S_ y (ix2 (0 : Fin 1) (0 : Fin 1)) (by
    have h1 := (S1x1.rowMajor (ix2 (0 : Fin 1) (0 : Fin 1))).isLt
    have h2 := (S_.rowMajor y).isLt
    have n1 : S1x1.numel = 1 := by decide
    have n2 : S_.numel = 1 := by decide
    omega)

/-- The three last host lines: the one entry, divided by the word of 8192. -/
theorem tail_value (c : Dev nD) (X : (Proc.devRef (τ := τ) .tc main_v8).ty.Contents (Elt Ideal)) :
    Launch.Wy (F := Ideal) m c X (Proc.devRef .tc main_v10)
      = fun _ => Ideal.div ((X : S1x1.Idx → EReal) (ix2 (0 : Fin 1) (0 : Fin 1))) Cert.Spec.w8192 := by
  show StableHlo.after (List.flatten [hostOps1 (F := Ideal)]) (Launch.Wx m c X) (Proc.devRef .tc main_v10) = _
  simp only [List.flatten_cons, List.flatten_nil, List.append_nil]
  dsimp only [hostOps1]
  after_results
  rw [Launch.Wx_v8]
  funext y
  exact congrArg (fun z => Ideal.div z Cert.Spec.w8192) (flatten_at (X : S1x1.Idx → EReal) y)

/-- The array of normalised rows the region reads is the flattened normalised input. -/
theorem garr_eq (c : Dev nD) :
    Acc.garr m c = Cert.Spec.flat (Cert.Spec.nrm (Cert.Spec.X3 (m ((c.tc : Thread nD τ).loc main_arg0)))) :=
  funext fun r => funext fun k => HostVal.v7_value m c r k

/-- The kernel program's result is the specification's loss of the flattened normalised input. -/
theorem kernel_value (c : Dev nD) :
    Cert.KernelIdeal.Launch.Wy (F := Ideal) m c ((Cert.KernelIdeal.Hand.dats (F := Ideal) m 0 c).arrAt 2 cfg0.N) (Proc.devRef .tc main_v10)
      = fun _ => Cert.Spec.lossK (Cert.Spec.flat (Cert.Spec.nrm (Cert.Spec.X3 (m ((c.tc : Thread nD τ).loc main_arg0))))) := by
  rw [tail_value, final_arr, Acc.acc_final, garr_eq]
  rfl

end Cert.KernelIdeal.Fin

end
-- ==== Proof.RefValue.lean ====
/-
  The reference's loss as a function of its input, read one operation at a time.

  The input is a 128 × 64 × 128 array x. Each row (i, j) is divided by the square root of its sum of squares, giving
  f = nrm x. The four-axis array of inner products ⟨f p q, f r s⟩ is transposed so that entry (i, j, n, m) is
  ⟨f m n, f i j⟩, divided by the temperature word and exponentiated: rexp f i j n m. The index vector holds (i, i) in
  row i (an iota whose negative entries would be wrapped by 128; none is negative), so the gather's entry (i, j, n) is
  rexp f i j n i, and its sum over n is the positives rpos f i j. The sum of rexp over both trailing axes is
  rtot f i j. Row (i, j) contributes − log (rpos / (rpos + (rtot − rpos))), and the result is the sum of these over
  (i, j) divided by the word of 8192: lossR f. Every initial value of a sum is the zero word, which reads 0.
-/
import proofs.«154974_j12833362280503_1_alg».proof.Proof.Gen.ReferenceIdeal.Run
import proofs.«154974_j12833362280503_1_alg».proof.Proof.Gen.ReferenceIdeal.Read
import proofs.«154974_j12833362280503_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! The reference's value, stage by stage, each read at an index built from its coordinates. -/

/-- The row sums of squares: at (i, j) the sum over k of the square of the input at (i, j, k). -/
theorem sq_at (x0 : (⟨S128x64x128, .f32⟩ : BufTy).Contents (Elt Ideal)) (i : Fin 128) (j : Fin 64) :
    val_main_call0_v1 (F := Ideal) x0 (ix2 i j) = ∑ k : Fin 128, Cert.Spec.X3 x0 i j k * Cert.Spec.X3 x0 i j k := by
  rw [val_main_call0_v1_apply]
  simp only [val_main_call0_cst_apply, val_main_call0_v0_apply, Ideal.ofBits_def, Ideal.ofBits_zero_f32, Ideal.mulf_def,
    zero_add]
  refine Finset.sum_congr rfl fun k _ => ?_
  have e : idx_main_call0_v1 (ix2 i j) k = ix3 i j k :=
    funext fun a => Fin.ext (by match a with | ⟨0, _⟩ => rfl | ⟨1, _⟩ => rfl | ⟨2, _⟩ => rfl)
  rw [e]; rfl

/-- The normalised rows: each entry divided by the square root of its row's sum of squares. -/
theorem nrm_at (x0 : (⟨S128x64x128, .f32⟩ : BufTy).Contents (Elt Ideal)) (i : Fin 128) (j : Fin 64) (k : Fin 128) :
    val_main_v2 (F := Ideal) x0 (ix3 i j k) = Cert.Spec.nrm (Cert.Spec.X3 x0) i j k := by
  have e1 : idx_main_v1 (ix3 i j k) = ix3 i j (0 : Fin 1) :=
    funext fun a => Fin.ext (by match a with | ⟨0, _⟩ => rfl | ⟨1, _⟩ => rfl | ⟨2, _⟩ => rfl)
  have e2 : idx_main_call0_v2 (ix3 i j (0 : Fin 1)) = ix2 i j :=
    funext fun a => Fin.ext (by match a with | ⟨0, _⟩ => rfl | ⟨1, _⟩ => rfl)
  rw [val_main_v2_apply, val_main_v1_apply, e1, val_main_v0_apply, val_main_call0_v2_apply, e2, sq_at]
  simp only [Ideal.hostDivf_def, Ideal.hostUnary_sqrt_def]
  rfl

/-- The inner products of normalised rows, (p, q) against (r, s). -/
theorem dot_at (x0 : (⟨S128x64x128, .f32⟩ : BufTy).Contents (Elt Ideal)) (p : Fin 128) (q : Fin 64) (r : Fin 128) (s : Fin 64) :
    val_main_v3 (F := Ideal) x0 (ix4 p q r s)
      = ∑ k : Fin 128, Cert.Spec.nrm (Cert.Spec.X3 x0) p q k * Cert.Spec.nrm (Cert.Spec.X3 x0) r s k := by
  rw [val_main_v3_apply]
  refine Finset.sum_congr rfl fun k _ => ?_
  have el : lidx_main_v3 (ix4 p q r s) k = ix3 p q k :=
    funext fun a => Fin.ext (by match a with | ⟨0, _⟩ => rfl | ⟨1, _⟩ => rfl | ⟨2, _⟩ => rfl)
  have er : ridx_main_v3 (ix4 p q r s) k = ix3 r s k :=
    funext fun a => Fin.ext (by match a with | ⟨0, _⟩ => rfl | ⟨1, _⟩ => rfl | ⟨2, _⟩ => rfl)
  rw [el, er, nrm_at, nrm_at]

/-- After the transposition, entry (i, j, n, m) is the inner product of row (m, n) with row (i, j). -/
theorem rdot_at (x0 : (⟨S128x64x128, .f32⟩ : BufTy).Contents (Elt Ideal)) (i : Fin 128) (j : Fin 64) (n : Fin 64) (m : Fin 128) :
    val_main_v4 (F := Ideal) x0 (ix4 i j n m) = Cert.Spec.rdot (Cert.Spec.nrm (Cert.Spec.X3 x0)) i j m n := by
  have e : idx_main_v4 (ix4 i j n m) = ix4 m n i j :=
    funext fun a => Fin.ext (by match a with | ⟨0, _⟩ => rfl | ⟨1, _⟩ => rfl | ⟨2, _⟩ => rfl | ⟨3, _⟩ => rfl)
  rw [val_main_v4_apply, e, dot_at]
  rfl

/-- The exponentiated similarity at (i, j, n, m). -/
theorem rexp_at (x0 : (⟨S128x64x128, .f32⟩ : BufTy).Contents (Elt Ideal)) (i : Fin 128) (j : Fin 64) (n : Fin 64) (m : Fin 128) :
    val_main_v7 (F := Ideal) x0 (ix4 i j n m) = Cert.Spec.rexp (Cert.Spec.nrm (Cert.Spec.X3 x0)) i j n m := by
  rw [val_main_v7_apply, val_main_v6_apply, rdot_at, val_main_v5_apply, val_main_cst_apply]
  simp only [Ideal.hostUnary_exp_def, Ideal.hostDivf_def, Ideal.ofBits_def]
  rfl

/-! The index vector: entry i of the iota, with the wrap of negative entries, is the word of i itself. -/

/-- A word below 128 is not negative. -/
theorem slt_zero (i : Fin 128) : IntOp.cmpi .slt (BitVec.ofNat 32 i.val) 0#32 = 0#1 := by
  revert i; decide

/-- A word below 128, read signed, is the number it was made from. -/
theorem toNat_word (i : Fin 128) : (BitVec.ofNat 32 i.val).toInt.toNat = i.val := by
  revert i; decide

theorem wrapA_at (i : Fin 128) : val_main_v13 (F := Ideal) (ix1 i) = BitVec.ofNat 32 i.val := by
  rw [val_main_v13_apply, val_main_v10_apply, val_main_v9_apply, val_main_c_apply]
  show Scalar.select (IntOp.cmpi .slt (BitVec.ofNat 32 i.val) 0#32) _ (BitVec.ofNat 32 i.val) = _
  rw [slt_zero, select_zero]

theorem wrapB_at (i : Fin 128) : val_main_v18 (F := Ideal) (ix1 i) = BitVec.ofNat 32 i.val := by
  rw [val_main_v18_apply, val_main_v15_apply, val_main_v14_apply, val_main_c_1_apply]
  show Scalar.select (IntOp.cmpi .slt (BitVec.ofNat 32 i.val) 0#32) _ (BitVec.ofNat 32 i.val) = _
  rw [slt_zero, select_zero]

/-- The pair of start indices of row i: both are i. -/
theorem pair_fst (i : Fin 128) : val_main_v21 (F := Ideal) (ix2 i (0 : Fin 2)) = BitVec.ofNat 32 i.val := by
  unfold val_main_v21
  rw [concatenate_pair_apply_left (1 : Fin S128x2.rank) _ _ concatenates_S128x1_S128x1_S128x2_d1 (ix2 i (0 : Fin 2)) rfl
    (ix2 i (0 : Fin 1)) (fun b => by match b with | ⟨0, _⟩ => rfl | ⟨1, _⟩ => rfl)]
  have e : idx_main_v19 (ix2 i (0 : Fin 1)) = ix1 i := funext fun a => Fin.ext (by match a with | ⟨0, _⟩ => rfl)
  rw [val_main_v19_apply, e, wrapA_at]

theorem pair_snd (i : Fin 128) : val_main_v21 (F := Ideal) (ix2 i (1 : Fin 2)) = BitVec.ofNat 32 i.val := by
  unfold val_main_v21
  rw [concatenate_pair_apply_right (1 : Fin S128x2.rank) _ _ concatenates_S128x1_S128x1_S128x2_d1 (ix2 i (1 : Fin 2)) rfl rfl
    (ix2 i (0 : Fin 1)) (fun b hb => by match b with | ⟨0, _⟩ => rfl | ⟨1, _⟩ => exact absurd rfl hb) rfl]
  have e : idx_main_v20 (ix2 i (0 : Fin 1)) = ix1 i := funext fun a => Fin.ext (by match a with | ⟨0, _⟩ => rfl)
  rw [val_main_v20_apply, e, wrapB_at]

/-! The gather: result entry (i, j, n) reads the operand at (s0, j, n, s3), the two start indices of row i read signed
    and clamped into 0 … 127. One lemma per operand axis. -/

theorem gat_0 (idx : IVec S128x2 32) (i : Fin 128) (j n : Fin 64) :
    (gather_S128x64x64x128_S128x2_S128x64x64_12_03_n_n_03_1_164641.operandIdx (ix3 i j n) idx 0).val = min (idx (ix2 i (0 : Fin 2))).toInt.toNat 127 := by
  show gather_S128x64x64x128_S128x2_S128x64x64_12_03_n_n_03_1_164641.start (ix3 i j n) idx 0 + gather_S128x64x64x128_S128x2_S128x64x64_12_03_n_n_03_1_164641.batchCoord (ix3 i j n) 0 + gather_S128x64x64x128_S128x2_S128x64x64_12_03_n_n_03_1_164641.offCoord (ix3 i j n) 0 = _
  rw [GatherDims.batchCoord_eq_zero _ _ _ (by decide), GatherDims.offCoord_eq_zero _ _ _ (by decide)]
  unfold GatherDims.start
  rw [dif_pos (show (0 : Fin S128x64x64x128.rank) ∈ gather_S128x64x64x128_S128x2_S128x64x64_12_03_n_n_03_1_164641.startIndexMap by decide)]
  have hsi : gather_S128x64x64x128_S128x2_S128x64x64_12_03_n_n_03_1_164641.siIdx (ix3 i j n) ⟨List.idxOf (0 : Fin S128x64x64x128.rank) gather_S128x64x64x128_S128x2_S128x64x64_12_03_n_n_03_1_164641.startIndexMap,
      List.idxOf_lt_length_iff.2 (by decide)⟩ = ix2 i (0 : Fin 2) :=
    funext fun b => Fin.ext (by match b with | ⟨0, _⟩ => rfl | ⟨1, _⟩ => rfl)
  rw [hsi]
  rfl

theorem gat_1 (idx : IVec S128x2 32) (i : Fin 128) (j n : Fin 64) :
    (gather_S128x64x64x128_S128x2_S128x64x64_12_03_n_n_03_1_164641.operandIdx (ix3 i j n) idx 1).val = j.val := by
  show gather_S128x64x64x128_S128x2_S128x64x64_12_03_n_n_03_1_164641.start (ix3 i j n) idx 1 + gather_S128x64x64x128_S128x2_S128x64x64_12_03_n_n_03_1_164641.batchCoord (ix3 i j n) 1 + gather_S128x64x64x128_S128x2_S128x64x64_12_03_n_n_03_1_164641.offCoord (ix3 i j n) 1 = _
  rw [GatherDims.batchCoord_eq_zero _ _ _ (by decide)]
  unfold GatherDims.start GatherDims.offCoord
  rw [dif_neg (show ¬ (1 : Fin S128x64x64x128.rank) ∈ gather_S128x64x64x128_S128x2_S128x64x64_12_03_n_n_03_1_164641.startIndexMap by decide),
    dif_pos (show (1 : Fin S128x64x64x128.rank) ∈ gather_S128x64x64x128_S128x2_S128x64x64_12_03_n_n_03_1_164641.sKept by decide)]
  simp only [Nat.zero_add]
  rfl

theorem gat_2 (idx : IVec S128x2 32) (i : Fin 128) (j n : Fin 64) :
    (gather_S128x64x64x128_S128x2_S128x64x64_12_03_n_n_03_1_164641.operandIdx (ix3 i j n) idx 2).val = n.val := by
  show gather_S128x64x64x128_S128x2_S128x64x64_12_03_n_n_03_1_164641.start (ix3 i j n) idx 2 + gather_S128x64x64x128_S128x2_S128x64x64_12_03_n_n_03_1_164641.batchCoord (ix3 i j n) 2 + gather_S128x64x64x128_S128x2_S128x64x64_12_03_n_n_03_1_164641.offCoord (ix3 i j n) 2 = _
  rw [GatherDims.batchCoord_eq_zero _ _ _ (by decide)]
  unfold GatherDims.start GatherDims.offCoord
  rw [dif_neg (show ¬ (2 : Fin S128x64x64x128.rank) ∈ gather_S128x64x64x128_S128x2_S128x64x64_12_03_n_n_03_1_164641.startIndexMap by decide),
    dif_pos (show (2 : Fin S128x64x64x128.rank) ∈ gather_S128x64x64x128_S128x2_S128x64x64_12_03_n_n_03_1_164641.sKept by decide)]
  simp only [Nat.zero_add]
  rfl

theorem gat_3 (idx : IVec S128x2 32) (i : Fin 128) (j n : Fin 64) :
    (gather_S128x64x64x128_S128x2_S128x64x64_12_03_n_n_03_1_164641.operandIdx (ix3 i j n) idx 3).val = min (idx (ix2 i (1 : Fin 2))).toInt.toNat 127 := by
  show gather_S128x64x64x128_S128x2_S128x64x64_12_03_n_n_03_1_164641.start (ix3 i j n) idx 3 + gather_S128x64x64x128_S128x2_S128x64x64_12_03_n_n_03_1_164641.batchCoord (ix3 i j n) 3 + gather_S128x64x64x128_S128x2_S128x64x64_12_03_n_n_03_1_164641.offCoord (ix3 i j n) 3 = _
  rw [GatherDims.batchCoord_eq_zero _ _ _ (by decide), GatherDims.offCoord_eq_zero _ _ _ (by decide)]
  unfold GatherDims.start
  rw [dif_pos (show (3 : Fin S128x64x64x128.rank) ∈ gather_S128x64x64x128_S128x2_S128x64x64_12_03_n_n_03_1_164641.startIndexMap by decide)]
  have hsi : gather_S128x64x64x128_S128x2_S128x64x64_12_03_n_n_03_1_164641.siIdx (ix3 i j n) ⟨List.idxOf (3 : Fin S128x64x64x128.rank) gather_S128x64x64x128_S128x2_S128x64x64_12_03_n_n_03_1_164641.startIndexMap,
      List.idxOf_lt_length_iff.2 (by decide)⟩ = ix2 i (1 : Fin 2) :=
    funext fun b => Fin.ext (by match b with | ⟨0, _⟩ => rfl | ⟨1, _⟩ => rfl)
  rw [hsi]
  rfl

/-- With both start indices of row i equal to i, the gather's entry (i, j, n) is the operand's at (i, j, n, i). -/
theorem gather_at {α : Type} (x : S128x64x64x128.Idx → α) (idx : IVec S128x2 32) (i : Fin 128) (j n : Fin 64)
    (h0 : idx (ix2 i (0 : Fin 2)) = BitVec.ofNat 32 i.val) (h1 : idx (ix2 i (1 : Fin 2)) = BitVec.ofNat 32 i.val) :
    Host.gather gather_S128x64x64x128_S128x2_S128x64x64_12_03_n_n_03_1_164641 x idx (ix3 i j n) = x (ix4 i j n i) := by
  unfold Host.gather
  refine congrArg x (funext fun a => Fin.ext ?_)
  have hi : min i.val 127 = i.val := by have := i.isLt; omega
  match a with
  | ⟨0, _⟩ => exact (gat_0 idx i j n).trans (by rw [h0, toNat_word]; exact hi)
  | ⟨1, _⟩ => exact gat_1 idx i j n
  | ⟨2, _⟩ => exact gat_2 idx i j n
  | ⟨3, _⟩ => exact (gat_3 idx i j n).trans (by rw [h1, toNat_word]; exact hi)

/-! The sums. -/

/-- The positives of row (i, j): the gathered entries (i, j, n, i) summed over n. -/
theorem rpos_at (x0 : (⟨S128x64x128, .f32⟩ : BufTy).Contents (Elt Ideal)) (i : Fin 128) (j : Fin 64) :
    val_main_v23 (F := Ideal) x0 (ix2 i j) = Cert.Spec.rpos (Cert.Spec.nrm (Cert.Spec.X3 x0)) i j := by
  rw [val_main_v23_apply]
  simp only [val_main_cst_3_apply, Ideal.ofBits_def, Ideal.ofBits_zero_f32, zero_add]
  refine Finset.sum_congr rfl fun n _ => ?_
  have e : idx_main_v23 (ix2 i j) n = ix3 i j n :=
    funext fun a => Fin.ext (by match a with | ⟨0, _⟩ => rfl | ⟨1, _⟩ => rfl | ⟨2, _⟩ => rfl)
  rw [e]
  unfold val_main_v22
  exact (gather_at _ _ i j n (pair_fst i) (pair_snd i)).trans (rexp_at x0 i j n i)

/-- An index of the four-axis array drops to (i, j) exactly when its first two coordinates are i and j. -/
theorem drop_iff (h : S128x64x64x128.ReducesTo [2, 3] S128x64) (y : S128x64x64x128.Idx) (i : Fin 128) (j : Fin 64) :
    h.drop y = ix2 i j ↔ (y 0).val = i.val ∧ (y 1).val = j.val := by
  constructor
  · intro e
    have e0 : (h.drop y 0).val = i.val := congrArg (fun z : S128x64.Idx => (z 0).val) e
    have e1 : (h.drop y 1).val = j.val := congrArg (fun z : S128x64.Idx => (z 1).val) e
    exact ⟨(Shape.ReducesTo.drop_apply_val_of_eq h y 0 0).symm.trans e0,
      (Shape.ReducesTo.drop_apply_val_of_eq h y 1 1).symm.trans e1⟩
  · rintro ⟨e0, e1⟩
    funext b
    refine Fin.ext ?_
    match b with
    | ⟨0, _⟩ => exact (Shape.ReducesTo.drop_apply_val_of_eq h y 0 0).trans e0
    | ⟨1, _⟩ => exact (Shape.ReducesTo.drop_apply_val_of_eq h y 1 1).trans e1

/-- The sum over the indices that drop to (i, j) is the double sum over the last two coordinates. -/
theorem sum_two_axes (h : S128x64x64x128.ReducesTo [2, 3] S128x64) (x : S128x64x64x128.Idx → EReal) (i : Fin 128) (j : Fin 64) :
    ∑ y ∈ Finset.univ.filter (fun y => h.drop y = ix2 i j), x y = ∑ n : Fin 64, ∑ m : Fin 128, x (ix4 i j n m) := by
  refine Eq.trans ?_ (Fintype.sum_prod_type' (fun (n : Fin 64) (m : Fin 128) => x (ix4 i j n m)))
  have back : ∀ y : S128x64x64x128.Idx, y ∈ Finset.univ.filter (fun y => h.drop y = ix2 i j) →
      ix4 i j (⟨(y 2).val, (y 2).isLt⟩ : Fin 64) (⟨(y 3).val, (y 3).isLt⟩ : Fin 128) = y := by
    intro y hy
    obtain ⟨e0, e1⟩ := (drop_iff h y i j).1 (Finset.mem_filter.1 hy).2
    funext a
    refine Fin.ext ?_
    match a with
    | ⟨0, _⟩ => exact e0.symm
    | ⟨1, _⟩ => exact e1.symm
    | ⟨2, _⟩ => rfl
    | ⟨3, _⟩ => rfl
  refine Finset.sum_bij' (fun y _ => ((⟨(y 2).val, (y 2).isLt⟩ : Fin 64), (⟨(y 3).val, (y 3).isLt⟩ : Fin 128)))
    (fun p _ => ix4 i j p.1 p.2) (fun _ _ => Finset.mem_univ _)
    (fun p _ => Finset.mem_filter.2 ⟨Finset.mem_univ _, (drop_iff h _ i j).2 ⟨rfl, rfl⟩⟩)
    (fun y hy => back y hy) (fun p _ => rfl) (fun y hy => congrArg x (back y hy).symm)

/-- All rows against row (i, j): the exponentiated similarities summed over both trailing axes. -/
theorem rtot_at (x0 : (⟨S128x64x128, .f32⟩ : BufTy).Contents (Elt Ideal)) (i : Fin 128) (j : Fin 64) :
    val_main_v24 (F := Ideal) x0 (ix2 i j) = Cert.Spec.rtot (Cert.Spec.nrm (Cert.Spec.X3 x0)) i j := by
  unfold val_main_v24
  have hy : ∀ (n : Fin 64) (m : Fin 128), val_main_v7 (F := Ideal) x0 (ix4 i j n m)
      = Cert.Spec.rexp (Cert.Spec.nrm (Cert.Spec.X3 x0)) i j n m := fun n m => rexp_at x0 i j n m
  generalize val_main_v7 (F := Ideal) x0 = y0 at hy ⊢
  simp only [Host.reduceAdd, Ideal.hostReduceAdd_def]
  unfold Ideal.hostReduceAdd
  rw [sum_two_axes]
  simp only [val_main_cst_4_apply, Ideal.ofBits_def, Ideal.ofBits_zero_f32, zero_add, hy]
  rfl

/-- Row (i, j)'s loss. -/
theorem rrow_at (x0 : (⟨S128x64x128, .f32⟩ : BufTy).Contents (Elt Ideal)) (i : Fin 128) (j : Fin 64) :
    val_main_v29 (F := Ideal) x0 (ix2 i j) = Cert.Spec.rrow (Cert.Spec.nrm (Cert.Spec.X3 x0)) i j := by
  rw [val_main_v29_apply, val_main_v28_apply, val_main_v27_apply, val_main_v26_apply, val_main_v25_apply, rpos_at, rtot_at]
  simp only [Ideal.hostNegf_def, Ideal.negf_def, Ideal.hostUnary_log_def, Ideal.hostDivf_def, Ideal.addf_def, Ideal.subf_def]
  rfl

/-- The reference's result is the specification's loss of the normalised input. -/
theorem result_eq (m : (ℓ : Loc nD τ sig) → Buf (Elt Ideal) ℓ) (c : Dev nD) :
    Cert.ReferenceIdeal.Value.res_main_v31 (F := Ideal) m c
      = fun _ => Cert.Spec.lossR (Cert.Spec.nrm (Cert.Spec.X3 (m ((c.tc : Thread nD τ).loc main_arg0)))) := by
  rw [val_main_v31_eq]
  generalize m ((c.tc : Thread nD τ).loc main_arg0) = x0
  funext y
  rw [val_main_v31_apply, val_main_v30_apply, val_main_cst_6_apply, sum_idx2]
  simp only [rrow_at, val_main_cst_5_apply, Ideal.ofBits_def, Ideal.ofBits_zero_f32, zero_add, Ideal.hostDivf_def]
  rfl

end Cert.ReferenceIdeal.RefValue

end
-- ==== Proof.PreDecode.lean ====
import proofs.«154974_j12833362280503_1_alg».proof.Pre_finite_inputs
import proofs.«154974_j12833362280503_1_alg».proof.Proof.Gen.Pre_finite_inputs
import proofs.«154974_j12833362280503_1_alg».proof.Proof.Spec
import Idealize.ShloMosaic.Lib.ReduceAll
import Idealize.ShloMosaic.Lib.ValueIdx
import Idealize.ShloMosaic.PureOps.Ideal.Laws

noncomputable section

open scoped BigOperators

namespace Cert.PreDecode

open Idealize.ShloMosaic Idealize.ShloMosaic.ValueIdx Cert.Pre_finite_inputs

/-- The shape of rank zero has one index. -/
instance : Subsingleton S_.Idx := ⟨fun a b => funext fun d => d.elim0⟩

/-- The single-precision pattern of plus infinity is the top of the extended reals. -/
theorem inf_bits : Ideal.ofBits .f32 0x7F800000#32 = (⊤ : EReal) := by simp [Ideal.ofBits, Ideal.ieee]

/-- An extended real whose absolute value max v (−v) is below +∞ is a real number. -/
theorem real_of_abs_lt_top (v : EReal) (hv : max v (-v) < ⊤) : ∃ r : ℝ, v = (r : EReal) := by
  induction v using EReal.rec with
  | bot => simp at hv
  | coe r => exact ⟨r, rfl⟩
  | top => simp at hv

/-- The sum over the last axis of the entrywise squares, started from the pattern of zero and read at row (i, j), is
    ∑ k, x i j k · x i j k. -/
theorem sumsq_read [Facts] (x : FVec Ideal S128x64x128 .f32) (i : Fin 128) (j : Fin 64) :
    Ideal.hostReduceAdd Facts.reducesTo_S128x64x128_S128x64_d2 (mulf x x) (Ideal.ofBits .f32 0x00000000#32) (ix2 i j)
      = ∑ k : Fin 128, Cert.Spec.X3 x i j k * Cert.Spec.X3 x i j k := by
  rw [Ideal.hostReduceAdd_single Facts.reducesTo_S128x64x128_S128x64_d2 (by decide), Ideal.ofBits_zero_f32, zero_add]
  refine Finset.sum_congr rfl fun k _ => ?_
  show x _ * x _ = x (ix3 i j k) * x (ix3 i j k)
  exact congrArg (fun t => x t * x t)
    (funext fun a => Fin.ext (by match a with | ⟨0, _⟩ => rfl | ⟨1, _⟩ => rfl | ⟨2, _⟩ => rfl))

/-- What the printed precondition says of its input: every entry is a real number, and every row's sum of squares is
    positive. -/
theorem of_pre [Cert.Pre_finite_inputs.Facts] (x : FVec Ideal Cert.Pre_finite_inputs.S128x64x128 .f32)
    (h : Cert.Pre_finite_inputs.fn (F := Ideal) x = fun _ => 1#1) :
    (∀ (i : Fin 128) (j : Fin 64) (k : Fin 128), ∃ v : ℝ, Cert.Spec.X3 x i j k = (v : EReal)) ∧
    (∀ (i : Fin 128) (j : Fin 64), (0 : EReal) < ∑ k : Fin 128, Cert.Spec.X3 x i j k * Cert.Spec.X3 x i j k) := by
  have h0 := congrFun h ValueIdx.ix0
  dsimp only [fn] at h0
  obtain ⟨h1, h2⟩ := IntOp.andi_eq_one.1 h0
  refine ⟨fun i j k => ?_, fun i j => ?_⟩
  · -- the entry at (i, j, k): |x| < +∞
    have e := Host.reduce_andi_all _ _ _ _ _ h1 (ix3 i j k)
    have e' : Ideal.cmp .olt (max (x (ix3 i j k)) (-(x (ix3 i j k)))) (Ideal.ofBits .f32 0x7F800000#32) = 1#1 := e
    rw [inf_bits] at e'
    have hlt : max (x (ix3 i j k)) (-(x (ix3 i j k))) < ⊤ := by
      by_contra hn
      simp [Ideal.cmp, hn] at e'
    exact real_of_abs_lt_top _ hlt
  · -- the row (i, j): 0 < 0 + ∑ k, x · x
    have e := Host.reduce_andi_all _ _ _ _ _ h2 (ix2 i j)
    have e' : Ideal.cmp .ogt
        (Ideal.hostReduceAdd Facts.reducesTo_S128x64x128_S128x64_d2 (mulf x x) (Ideal.ofBits .f32 0x00000000#32) (ix2 i j))
        (Ideal.ofBits .f32 0x00000000#32) = 1#1 := e
    rw [sumsq_read x i j, Ideal.ofBits_zero_f32] at e'
    by_contra hn
    simp [Ideal.cmp, hn] at e'

end Cert.PreDecode

end
-- ==== Proof.lean ====
/-
  Kernel against reference: a contrastive loss over 8192 unit-norm rows, over the extended reals.

  Both programs divide every row of the 128 × 64 × 128 input by its Euclidean norm. The kernel flattens the rows
  (row r = 64 i + j), and at each of 32 grid points takes a block of 256 query rows against all 8192 key rows:
  inner products times the reciprocal temperature, the exponential, the sum over all keys (total) and over the
  keys of the query's own batch (pos, picked out by an integer mask on r / 64 = s / 64), log total − log pos, summed
  over the block and accumulated over the grid into one number, divided by 8192 on the host. The reference forms all
  pairwise inner products at once, divides by the temperature, exponentiates, gathers the same-batch entries for
  pos, takes neg = total − pos, and averages − log (pos / (pos + neg)).

  The two agree as extended reals when every input entry is a real number and no row is zero (so that every norm is
  a positive real): then every exponential is a positive real, pos + (total − pos) = total, and
  − log (pos / total) = log total − log pos. The kernel's reciprocal temperature is the named constant
  2^27 / 13421773, the exact reciprocal of the reference's divisor 13421773 / 2^27, so multiplying by the one is
  dividing by the other. Sums over rows are regrouped freely (32 × 256 = 128 × 64 = 8192).

  The three frames: the kernel program at the word level and at the ideal values runs through its launch (its two
  input windows share one array, each holding half of it); the reference is a straight line of host operations.
-/
import proofs.«154974_j12833362280503_1_alg».proof.Defs
import proofs.«154974_j12833362280503_1_alg».proof.Proof.Gen.Kernel
import proofs.«154974_j12833362280503_1_alg».proof.Proof.Gen.Kernel.Skeleton
import proofs.«154974_j12833362280503_1_alg».proof.Proof.Gen.Kernel.Launch
import proofs.«154974_j12833362280503_1_alg».proof.Proof.Gen.Kernel.Points
import proofs.«154974_j12833362280503_1_alg».proof.Proof.Gen.KernelIdeal
import proofs.«154974_j12833362280503_1_alg».proof.Proof.Gen.KernelIdeal.Skeleton
import proofs.«154974_j12833362280503_1_alg».proof.Proof.Gen.KernelIdeal.Launch
import proofs.«154974_j12833362280503_1_alg».proof.Proof.Gen.KernelIdeal.Points
import proofs.«154974_j12833362280503_1_alg».proof.Proof.Gen.ReferenceIdeal
import proofs.«154974_j12833362280503_1_alg».proof.Proof.Gen.ReferenceIdeal.Run
import proofs.«154974_j12833362280503_1_alg».proof.Proof.Gen.Pre_finite_inputs
import proofs.«154974_j12833362280503_1_alg».proof.Proof.K.FrameData
import proofs.«154974_j12833362280503_1_alg».proof.Proof.K.Launch
import proofs.«154974_j12833362280503_1_alg».proof.Proof.KI.FrameData
import proofs.«154974_j12833362280503_1_alg».proof.Proof.KI.Launch
import proofs.«154974_j12833362280503_1_alg».proof.Proof.KI.Final
import proofs.«154974_j12833362280503_1_alg».proof.Proof.RefValue
import proofs.«154974_j12833362280503_1_alg».proof.Proof.PreDecode
import proofs.«154974_j12833362280503_1_alg».proof.Proof.Algebra
import Idealize.ShloMosaic.Adequacy
import Idealize.ShloMosaic.Init

noncomputable section

namespace Cert.Proof

open Idealize.ShloMosaic Idealize.SL.Sem Idealize.ShloMosaic.TcCoe

/-- The word-level kernel program runs to its end and leaves the input array as it was. -/
theorem frame_k : Cert.frame_Kernel := fun m ρ _ =>
  (θ_run (Cert.Kernel.defs (F := Bits)) _ _).mono (fun _ h c => ((h c).2).trans (Cert.Kernel.Launch.V_main_arg0 m c))
    (Cert.Kernel.Launch.run_core m ρ (Cert.Kernel.Hand.dats m) (Cert.Kernel.Hand.body_obligation m) (Cert.Kernel.Hand.A_eq m)
      (fun _ => rfl) (fun _ => rfl) (fun _ _ => rfl) (fun _ _ => rfl))

/-- The kernel program at the ideal values: its result is the kernel-side loss of the normalised input, and the
    input array is as it was. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v10)
          = (fun _ => Cert.Spec.lossK (Cert.Spec.flat (Cert.Spec.nrm (Cert.Spec.X3 (m ((c.tc : Thread Cert.KernelIdeal.nD Cert.KernelIdeal.τ).loc Cert.KernelIdeal.main_arg0))))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run (Cert.KernelIdeal.defs (F := Ideal)) _ _).mono
    (fun _ h c => ⟨((h c).1).trans (Cert.KernelIdeal.Fin.kernel_value m c), ((h c).2).trans (Cert.KernelIdeal.Launch.V_main_arg0 m c)⟩)
    (Cert.KernelIdeal.Launch.run_core m ρ (Cert.KernelIdeal.Hand.dats m) (Cert.KernelIdeal.Hand.body_obligation m) (Cert.KernelIdeal.Hand.A_eq m)
      (fun _ => rfl) (fun _ => rfl) (fun _ _ => rfl) (fun _ _ => rfl))

theorem frame_ki : Cert.frame_KernelIdeal := fun m ρ _ =>
  (θ_run (Cert.KernelIdeal.defs (F := Ideal)) _ _).mono (fun _ h c => (h c).2) (run_ki m ρ)

/-- The reference is a straight line of host operations: it runs to its end and writes no argument. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal 10 is named the reciprocal of the reference's divisor. -/
theorem preserves : Cert.preserves_Kernel_KernelIdeal :=
  IdealRules.named_const.statement Cert.KernelIdeal.κ "inv_temperature" .f32 0x41200000#32 ((134217728 / 13421773 : ℝ) : EReal) rfl

/-- From inputs that agree, are real everywhere and have no zero row, both programs end at one loss. -/
theorem algebraic : Cert.algebraic_KernelIdeal_ReferenceIdeal := by
  intro m ρ m' ρ' hpre hagree
  refine ⟨fun c => fun _ => Cert.Spec.lossK (Cert.Spec.flat (Cert.Spec.nrm (Cert.Spec.X3
    (m ((c.tc : Thread Cert.KernelIdeal.nD Cert.KernelIdeal.τ).loc Cert.KernelIdeal.main_arg0))))), run_ki m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, hagree c]
  obtain ⟨hfin, hpos⟩ := Cert.PreDecode.of_pre _ (hpre c)
  exact funext fun _ => (Cert.Algebra.lossK_eq_lossR _ hfin hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
